-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S50000 : Shape := ⟨1, ![50000]⟩
abbrev S128x96 : Shape := ⟨2, ![128, 96]⟩
abbrev S96 : Shape := ⟨1, ![96]⟩
abbrev S1x96 : Shape := ⟨2, ![1, 96]⟩
abbrev S96x96 : Shape := ⟨2, ![96, 96]⟩
abbrev S96x10 : Shape := ⟨2, ![96, 10]⟩
abbrev S10 : Shape := ⟨1, ![10]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S1x96 : S_.BroadcastsInDim S1x96 (![] : Fin 0 → Fin S1x96.rank)
  reducesTo_S1x96_S_d0_1 : S1x96.ReducesTo [0, 1] S_
  bcast_S_S96x96 : S_.BroadcastsInDim S96x96 (![] : Fin 0 → Fin S96x96.rank)
  reducesTo_S96x96_S_d0_1 : S96x96.ReducesTo [0, 1] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v64 : IVec S_ 1) (main_v68 : IVec S800000 1) : IVec S_ 1 :=
  let main_c_25 : IVec S_ 1 := constantI S_ 1 1#1
  let main_v69 : IVec S_ 1 := (fun x v => Host.reduce IntOp.andi x v reducesTo_S800000_S_d0 h_S_) main_v68 main_c_25
  let main_v70 : IVec S_ 1 := andi main_v64 main_v69
  main_v70

def fn_part3 {F : FTy → Type} [FloatOps F] (main_arg1 : IVec S2x800000 32) (main_arg13 : FVec F S10 .f32) (main_v48 : IVec S_ 1) (main_v49 : FVec F S96x10 .f32) (main_v50 : FVec F S96x10 .f32) : IVec S_ 1 :=
  let main_v51 : IVec S96x10 1 := cmpf .olt main_v49 main_v50
  let main_c_19 : IVec S_ 1 := constantI S_ 1 1#1
  let main_v52 : IVec S_ 1 := (fun x v => Host.reduce IntOp.andi x v reducesTo_S96x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 4294917296#32
  let main_v61 : IVec S800000 32 := broadcastInDim S800000 ![] bcast_S_S800000 main_c_22
  let main_v62 : IVec S800000 1 := cmpi .sge main_v60 main_v61
  let main_c_23 : IVec S_ 1 := constantI S_ 1 1#1
  let main_v63 : IVec S_ 1 := (fun x v => Host.reduce IntOp.andi x v reducesTo_S800000_S_d0 h_S_) main_v62 main_c_23
  let main_v64 : IVec S_ 1 := andi main_v58 main_v63
  let main_v65 : IVec S1x800000 32 := (extractStridedSlice S1x800000 ![0, 0] · slices_S2x800000_S1x800000_0_0) main_arg1
  let main_v66 : IVec S800000 32 := shapeCast S800000 main_v65 shapeCasts_S1x800000_S800000
  let main_c_24 : IVec S_ 32 := constantI S_ 32 50000#32
  let main_v67 : IVec S800000 32 := broadcastInDim S800000 ![] bcast_S_S800000 main_c_24
  let main_v68 : IVec S800000 1 := cmpi .slt main_v66 main_v67
  fn_part4 (F := F) main_v64 main_v68

def fn_part2 {F : FTy → Type} [FloatOps F] (main_arg1 : IVec S2x800000 32) (main_arg9 : FVec F S96 .f32) (main_arg10 : FVec F S1x96 .f32) (main_arg11 : FVec F S96 .f32) (main_arg12 : FVec F S96x10 .f32) (main_arg13 : FVec F S10 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S1x96 .f32 := Host.absf main_arg10
  let main_cst_14 : FVec F S_ .f32 := constant S_ .f32 0x7F800000#32
  let main_v40 : FVec F S1x96 .f32 := broadcastInDim S1x96 ![] bcast_S_S1x96 main_cst_14
  let main_v41 : IVec S1x96 1 := cmpf .olt main_v39 main_v40
  let main_c_15 : IVec S_ 1 := constantI S_ 1 1#1
  let main_v42 : IVec S_ 1 := (fun x v => Host.reduce IntOp.andi x v reducesTo_S1x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x10 .f32 := Host.absf main_arg12
  let main_cst_18 : FVec F S_ .f32 := constant S_ .f32 0x7F800000#32
  let main_v50 : FVec F S96x10 .f32 := broadcastInDim S96x10 ![] bcast_S_S96x10 main_cst_18
  fn_part3 (F := F) main_arg1 main_arg13 main_v48 main_v49 main_v50

def fn_part1 {F : FTy → Type} [FloatOps F] (main_arg1 : IVec S2x800000 32) (main_arg6 : FVec F S1x96 .f32) (main_arg7 : FVec F S96 .f32) (main_arg8 : FVec F S96x96 .f32) (main_arg9 : FVec F S96 .f32) (main_arg10 : FVec F S1x96 .f32) (main_arg11 : FVec F S96 .f32) (main_arg12 : FVec F S96x10 .f32) (main_arg13 : FVec F S10 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S1x96 .f32 := Host.absf main_arg6
  let main_cst_6 : FVec F S_ .f32 := constant S_ .f32 0x7F800000#32
  let main_v20 : FVec F S1x96 .f32 := broadcastInDim S1x96 ![] bcast_S_S1x96 main_cst_6
  let main_v21 : IVec S1x96 1 := cmpf .olt main_v19 main_v20
  let main_c_7 : IVec S_ 1 := constantI S_ 1 1#1
  let main_v22 : IVec S_ 1 := (fun x v => Host.reduce IntOp.andi x v reducesTo_S1x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x128 .f32) (main_arg1 : IVec S2x800000 32) (main_arg2 : FVec F S800000x1 .f32) (main_arg3 : IVec S50000 32) (main_arg4 : FVec F S128x96 .f32) (main_arg5 : FVec F S96 .f32) (main_arg6 : FVec F S1x96 .f32) (main_arg7 : FVec F S96 .f32) (main_arg8 : FVec F S96x96 .f32) (main_arg9 : FVec F S96 .f32) (main_arg10 : FVec F S1x96 .f32) (main_arg11 : FVec F S96 .f32) (main_arg12 : FVec F S96x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x96 .f32 := Host.absf main_arg4
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg1 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S50000 : Shape := ⟨1, ![50000]⟩
abbrev S128x96 : Shape := ⟨2, ![128, 96]⟩
abbrev S96 : Shape := ⟨1, ![96]⟩
abbrev S1x96 : Shape := ⟨2, ![1, 96]⟩
abbrev S96x96 : Shape := ⟨2, ![96, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S50000x96 : Shape := ⟨2, ![50000, 96]⟩
abbrev S5000x128 : Shape := ⟨2, ![5000, 128]⟩
abbrev S5000x96 : Shape := ⟨2, ![5000, 96]⟩
abbrev S800000x96 : Shape := ⟨2, ![800000, 96]⟩
abbrev S8000x1 : Shape := ⟨2, ![8000, 1]⟩
abbrev S8000x96 : Shape := ⟨2, ![8000, 96]⟩
abbrev S_ : Shape := ⟨0, ![]⟩
abbrev S1 : Shape := ⟨1, ![1]⟩
abbrev S1x1 : Shape := ⟨2, ![1, 1]⟩
abbrev S64x96 : Shape := ⟨2, ![64, 96]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 106
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S50000, .i32⟩
  | .hbm, ⟨4, _⟩ => ⟨S128x96, .f32⟩
  | .hbm, ⟨5, _⟩ => ⟨S96, .f32⟩
  | .hbm, ⟨6, _⟩ => ⟨S1x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S1x96, .f32⟩
  | .hbm, ⟨11, _⟩ => ⟨S96, .f32⟩
  | .hbm, ⟨12, _⟩ => ⟨S96x10, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S1x96, .f32⟩
  | .hbm, ⟨19, _⟩ => ⟨S50000x96, .f32⟩
  | .hbm, ⟨20, _⟩ => ⟨S1x96, .f32⟩
  | .hbm, ⟨21, _⟩ => ⟨S800000x96, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x96, .f32⟩
  | .hbm, ⟨41, _⟩ => ⟨S800000x96, .i1⟩
  | .hbm, ⟨42, _⟩ => ⟨S_, .f32⟩
  | .hbm, ⟨43, _⟩ => ⟨S800000x96, .f32⟩
  | .hbm, ⟨44, _⟩ => ⟨S800000x96, .f32⟩
  | .hbm, ⟨45, _⟩ => ⟨S800000x96, .f32⟩
  | .hbm, ⟨46, _⟩ => ⟨S_, .f32⟩
  | .hbm, ⟨47, _⟩ => ⟨S50000x96, .f32⟩
  | .hbm, ⟨48, _⟩ => ⟨S800000x1, .i32⟩
  | .hbm, ⟨49, _⟩ => ⟨S50000x96, .f32⟩
  | .hbm, ⟨50, _⟩ => ⟨S_, .f32⟩
  | .hbm, ⟨51, _⟩ => ⟨S50000x96, .f32⟩
  | .hbm, ⟨52, _⟩ => ⟨S50000x96, .f32⟩
  | .hbm, ⟨53, _⟩ => ⟨S1x96, .f32⟩
  | .hbm, ⟨54, _⟩ => ⟨S50000x96, .f32⟩
  | .hbm, ⟨55, _⟩ => ⟨S1x96, .f32⟩
  | .hbm, ⟨56, _⟩ => ⟨S800000x96, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S1, .i32⟩
  | .hbm, ⟨66, _⟩ => ⟨S_, .i32⟩
  | .hbm, ⟨67, _⟩ => ⟨S800000x1, .i32⟩
  | .hbm, ⟨68, _⟩ => ⟨S800000x1, .i1⟩
  | .hbm, ⟨69, _⟩ => ⟨S1x1, .i32⟩
  | .hbm, ⟨70, _⟩ => ⟨S800000x1, .i32⟩
  | .hbm, ⟨71, _⟩ => ⟨S800000x1, .i1⟩
  | .hbm, ⟨72, _⟩ => ⟨S800000x1, .i1⟩
  | .hbm, ⟨73, _⟩ => ⟨S_, .i1⟩
  | .hbm, ⟨74, _⟩ => ⟨S800000, .i1⟩
  | .hbm, ⟨75, _⟩ => ⟨S800000x96, .f32⟩
  | .hbm, ⟨76, _⟩ => ⟨S800000x96, .i1⟩
  | .hbm, ⟨77, _⟩ => ⟨S_, .f32⟩
  | .hbm, ⟨78, _⟩ => ⟨S800000x96, .f32⟩
  | .hbm, ⟨79, _⟩ => ⟨S800000x96, .f32⟩
  | .hbm, ⟨80, _⟩ => ⟨S800000x96, .f32⟩
  | .hbm, ⟨81, _⟩ => ⟨S_, .f32⟩
  | .hbm, ⟨82, _⟩ => ⟨S50000x96, .f32⟩
  | .hbm, ⟨83, _⟩ => ⟨S800000x1, .i32⟩
  | .hbm, ⟨84, _⟩ => ⟨S50000x96, .f32⟩
  | .hbm, ⟨85, _⟩ => ⟨S_, .f32⟩
  | .hbm, ⟨86, _⟩ => ⟨S50000x96, .f32⟩
  | .hbm, ⟨87, _⟩ => ⟨S50000x96, .f32⟩
  | .hbm, ⟨88, _⟩ => ⟨S_, .f32⟩
  | .hbm, ⟨89, _⟩ => ⟨S64x96, .f32⟩
  | .hbm, ⟨90, _⟩ => ⟨S50000x1, .i32⟩
  | .hbm, ⟨91, _⟩ => ⟨S64x96, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S64, .f32⟩
  | .hbm, ⟨96, _⟩ => ⟨S50000x1, .i32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64x1, .f32⟩
  | .hbm, ⟨102, _⟩ => ⟨S64x96, .f32⟩
  | .hbm, ⟨103, _⟩ => ⟨S64x96, .f32⟩
  | .hbm, ⟨104, _⟩ => ⟨S1x10, .f32⟩
  | .hbm, ⟨105, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S8000x1, .f32⟩
  | .local _ .vmem, ⟨7, _⟩ => ⟨S8000x1, .f32⟩
  | .local _ .vmem, ⟨8, _⟩ => ⟨S1x96, .f32⟩
  | .local _ .vmem, ⟨9, _⟩ => ⟨S1x96, .f32⟩
  | .local _ .vmem, ⟨10, _⟩ => ⟨S8000x96, .f32⟩
  | .local _ .vmem, ⟨11, _⟩ => ⟨S8000x96, .f32⟩
  | .local _ .vmem, ⟨12, _⟩ => ⟨S5000x96, .f32⟩
  | .local _ .vmem, ⟨13, _⟩ => ⟨S5000x96, .f32⟩
  | .local _ .vmem, ⟨14, _⟩ => ⟨S96x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S8000x1, .f32⟩
  | .local _ .vmem, ⟨19, _⟩ => ⟨S8000x1, .f32⟩
  | .local _ .vmem, ⟨20, _⟩ => ⟨S1x96, .f32⟩
  | .local _ .vmem, ⟨21, _⟩ => ⟨S1x96, .f32⟩
  | .local _ .vmem, ⟨22, _⟩ => ⟨S8000x96, .f32⟩
  | .local _ .vmem, ⟨23, _⟩ => ⟨S8000x96, .f32⟩
  | .local _ .vmem, ⟨24, _⟩ => ⟨S64x96, .f32⟩
  | .local _ .vmem, ⟨25, _⟩ => ⟨S96x10, .f32⟩
  | .local _ .vmem, ⟨26, _⟩ => ⟨S1x10, .f32⟩
  | .local _ .vmem, ⟨27, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_call1_cst : Ref sig .tc := ⟨.hbm, 50, rfl⟩
abbrev main_call1_v0 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v18 : Ref sig .tc := ⟨.hbm, 79, rfl⟩
abbrev main_v19 : Ref sig .tc := ⟨.hbm, 80, rfl⟩
abbrev main_cst_0 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_call3_cst : Ref sig .tc := ⟨.hbm, 85, rfl⟩
abbrev main_call3_v0 : Ref sig .tc := ⟨.hbm, 86, rfl⟩
abbrev main_v23 : Ref sig .tc := ⟨.hbm, 87, rfl⟩
abbrev main_cst_1 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_2 : Ref sig .tc := ⟨.hbm, 92, rfl⟩
abbrev main_v27 : Ref sig .tc := ⟨.hbm, 93, rfl⟩
abbrev main_cst_3 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_cst_4 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x96 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S96x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  inb_S8000x1_S8000x1_0_0 : ∀ a, (![0, 0] : Fin 2 → Nat) a + S8000x1.size a ≤ S8000x1.size a
  h_S8000x1 : 0 < S8000x1.numel
  broadcasts_S8000x1_S8000x96 : S8000x1.Broadcasts S8000x96
  broadcasts_S1x96_S8000x96 : S1x96.Broadcasts S8000x96
  inb_S8000x96_S8000x96_0_0 : ∀ a, (![0, 0] : Fin 2 → Nat) a + S8000x96.size a ≤ S8000x96.size a
  h_S8000x96 : 0 < S8000x96.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  bcast_S_S64x96 : S_.BroadcastsInDim S64x96 (![] : Fin 0 → Fin S64x96.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  shapeCasts_S10_S1x10 : S10.ShapeCasts S1x10
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S96x10_S96x10_0_0 : ∀ a, (![0, 0] : Fin 2 → Nat) a + S96x10.size a ≤ S96x10.size a
  h_S96x10 : 0 < S96x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S5000x128_S128x96_S5000x96_1_0_0_1_n_n_wf : DotDims.WF S5000x128 S128x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  dot_S64x96_S96x10_S64x10_1_0_0_1_n_n_wf : DotDims.WF S64x96 S96x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S800000x1.size a
  hwx1_0 : ∀ i : grid1.Coords, EltTy.bits .f32 = 32 ∨ (Rect.block (s := S800000x1) S8000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x96.size a ≤ S800000x96.size a
  hwx1_3 : ∀ i : grid1.Coords, EltTy.bits .f32 = 32 ∨ (Rect.block (s := S800000x96) S8000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x1.size a ≤ S800000x1.size a
  hwx3_0 : ∀ i : grid3.Coords, EltTy.bits .f32 = 32 ∨ (Rect.block (s := S800000x1) S8000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x96.size a ≤ S800000x96.size a
  hwx3_3 : ∀ i : grid3.Coords, EltTy.bits .f32 = 32 ∨ (Rect.block (s := S800000x96) S8000x96.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x96.size a ≤ S64x96.size a
  hwx4_0 : ∀ i : grid4.Coords, EltTy.bits .f32 = 32 ∨ (Rect.block (s := S64x96) S64x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x10.size a ≤ S96x10.size a
  hwx4_1 : ∀ i : grid4.Coords, EltTy.bits .f32 = 32 ∨ (Rect.block (s := S96x10) S96x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x96_S96x10_S64x10_1_0_0_1_n_n : DotDims S64x96 S96x10 S64x10 where
  lhsContracting := [1]
  rhsContracting := [0]
  lhsNonContracting := [0]
  rhsNonContracting := [1]
  lhsBatch := []
  rhsBatch := []
  wf := dot_S64x96_S96x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S8000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S8000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v35) S64x96.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S96x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S64x10.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S50000 : Shape := ⟨1, ![50000]⟩
abbrev S128x96 : Shape := ⟨2, ![128, 96]⟩
abbrev S96 : Shape := ⟨1, ![96]⟩
abbrev S1x96 : Shape := ⟨2, ![1, 96]⟩
abbrev S96x96 : Shape := ⟨2, ![96, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S800000x96 : Shape := ⟨2, ![800000, 96]⟩
abbrev S64x96 : Shape := ⟨2, ![64, 96]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S50000, .i32⟩
  | .hbm, ⟨4, _⟩ => ⟨S128x96, .f32⟩
  | .hbm, ⟨5, _⟩ => ⟨S96, .f32⟩
  | .hbm, ⟨6, _⟩ => ⟨S1x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S1x96, .f32⟩
  | .hbm, ⟨11, _⟩ => ⟨S96, .f32⟩
  | .hbm, ⟨12, _⟩ => ⟨S96x10, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000x96, .f32⟩
  | .hbm, ⟨19, _⟩ => ⟨S1x96, .f32⟩
  | .hbm, ⟨20, _⟩ => ⟨S50000x96, .f32⟩
  | .hbm, ⟨21, _⟩ => ⟨S50000x96, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S800000x96, .f32⟩
  | .hbm, ⟨32, _⟩ => ⟨S1x96, .f32⟩
  | .hbm, ⟨33, _⟩ => ⟨S800000x96, .f32⟩
  | .hbm, ⟨34, _⟩ => ⟨S800000x96, .f32⟩
  | .hbm, ⟨35, _⟩ => ⟨S800000x96, .f32⟩
  | .hbm, ⟨36, _⟩ => ⟨S_, .f32⟩
  | .hbm, ⟨37, _⟩ => ⟨S50000x96, .f32⟩
  | .hbm, ⟨38, _⟩ => ⟨S800000x1, .i32⟩
  | .hbm, ⟨39, _⟩ => ⟨S50000x96, .f32⟩
  | .hbm, ⟨40, _⟩ => ⟨S_, .f32⟩
  | .hbm, ⟨41, _⟩ => ⟨S50000x96, .f32⟩
  | .hbm, ⟨42, _⟩ => ⟨S50000x96, .f32⟩
  | .hbm, ⟨43, _⟩ => ⟨S50000x96, .f32⟩
  | .hbm, ⟨44, _⟩ => ⟨S1x96, .f32⟩
  | .hbm, ⟨45, _⟩ => ⟨S50000x96, .f32⟩
  | .hbm, ⟨46, _⟩ => ⟨S50000x96, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x96, .f32⟩
  | .hbm, ⟨56, _⟩ => ⟨S800000x96, .f32⟩
  | .hbm, ⟨57, _⟩ => ⟨S1x96, .f32⟩
  | .hbm, ⟨58, _⟩ => ⟨S800000x96, .f32⟩
  | .hbm, ⟨59, _⟩ => ⟨S800000x96, .f32⟩
  | .hbm, ⟨60, _⟩ => ⟨S800000x96, .f32⟩
  | .hbm, ⟨61, _⟩ => ⟨S_, .f32⟩
  | .hbm, ⟨62, _⟩ => ⟨S50000x96, .f32⟩
  | .hbm, ⟨63, _⟩ => ⟨S800000x1, .i32⟩
  | .hbm, ⟨64, _⟩ => ⟨S50000x96, .f32⟩
  | .hbm, ⟨65, _⟩ => ⟨S_, .f32⟩
  | .hbm, ⟨66, _⟩ => ⟨S50000x96, .f32⟩
  | .hbm, ⟨67, _⟩ => ⟨S50000x96, .f32⟩
  | .hbm, ⟨68, _⟩ => ⟨S_, .f32⟩
  | .hbm, ⟨69, _⟩ => ⟨S64x96, .f32⟩
  | .hbm, ⟨70, _⟩ => ⟨S50000x1, .i32⟩
  | .hbm, ⟨71, _⟩ => ⟨S64x96, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S64, .f32⟩
  | .hbm, ⟨76, _⟩ => ⟨S50000x1, .i32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64x1, .f32⟩
  | .hbm, ⟨82, _⟩ => ⟨S64x96, .f32⟩
  | .hbm, ⟨83, _⟩ => ⟨S64x96, .f32⟩
  | .hbm, ⟨84, _⟩ => ⟨S64x10, .f32⟩
  | .hbm, ⟨85, _⟩ => ⟨S1x10, .f32⟩
  | .hbm, ⟨86, _⟩ => ⟨S64x10, .f32⟩
  | .hbm, ⟨87, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_1 : Ref sig .tc := ⟨.hbm, 47, rfl⟩
abbrev main_v28 : Ref sig .tc := ⟨.hbm, 48, rfl⟩
abbrev main_v29 : Ref sig .tc := ⟨.hbm, 49, rfl⟩
abbrev main_c_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x96_S800000x96_0_1 : S1x96.BroadcastsInDim S800000x96 (![0, 1] : Fin 2 → Fin S800000x96.rank)
  bcast_S_S50000x96 : S_.BroadcastsInDim S50000x96 (![] : Fin 0 → Fin S50000x96.rank)
  bcast_S_S64x96 : S_.BroadcastsInDim S64x96 (![] : Fin 0 → Fin S64x96.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  dot_S800000x1_S1x96_S800000x96_1_0_0_1_n_n_wf : DotDims.WF S800000x1 S1x96 S800000x96 [1] [0] [0] [1] [] []
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  dot_S64x96_S96x10_S64x10_1_0_0_1_n_n_wf : DotDims.WF S64x96 S96x10 S64x10 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x1_S1x96_S800000x96_1_0_0_1_n_n : DotDims S800000x1 S1x96 S800000x96 where
  lhsContracting := [1]
  rhsContracting := [0]
  lhsNonContracting := [0]
  rhsNonContracting := [1]
  lhsBatch := []
  rhsBatch := []
  wf := dot_S800000x1_S1x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x96_S96x10_S64x10_1_0_0_1_n_n : DotDims S64x96 S96x10 S64x10 where
  lhsContracting := [1]
  rhsContracting := [0]
  lhsNonContracting := [0]
  rhsNonContracting := [1]
  lhsBatch := []
  rhsBatch := []
  wf := dot_S64x96_S96x10_S64x10_1_0_0_1_n_n_wf

class Facts : Prop extends Facts₀ where

variable [Facts]
-- ==== Proof.Spec.lean ====
/-
  The mathematics the five kernels compute, entry by entry, on the extended reals.

  A dense layer sends a matrix x (M rows, K columns), a weight matrix w (K by N) and a bias row b (1 by N) to
  the M by N matrix whose entry (p, q) is  (sum over k of x[p,k] * w[k,q]) + b[0,q].
  The edge transform sends a column a (E by 1), a weight row w (1 by H) and a bias row b (1 by H) to the E by H
  matrix whose entry (e, h) is  a[e,0] * w[0,h] + b[0,h]  (a product with one contracted coordinate).
  A bias vector enters as a row: entry (0, q) of the row is entry q of the vector.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Entry (p, q) of a dense layer: row p of x against column q of w, plus the bias row's entry q. -/
def denseAt {M K N : Nat} (x : FVec Ideal ⟨2, ![M, K]⟩ .f32) (w : FVec Ideal ⟨2, ![K, N]⟩ .f32)
    (b : FVec Ideal ⟨2, ![1, N]⟩ .f32) (p : Fin M) (q : Fin N) : EReal :=
  (∑ k : Fin K, x (ix2 p k) * w (ix2 k q)) + b (ix2 (0 : Fin 1) q)

/-- The dense layer as a whole matrix. -/
def dense {M K N : Nat} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => denseAt x w b (i 0) (i 1)

theorem dense_apply {M K N : Nat} (x : FVec Ideal ⟨2, ![M, K]⟩ .f32) (w : FVec Ideal ⟨2, ![K, N]⟩ .f32)
    (b : FVec Ideal ⟨2, ![1, N]⟩ .f32) (p : Fin M) (q : Fin N) :
    dense x w b (ix2 p q) = denseAt x w b p q := rfl

/-- Entry (e, h) of the edge transform: the edge's one attribute times the weight row's entry h, plus the bias
    row's entry h. -/
def edgeAt {E H : Nat} (a : FVec Ideal ⟨2, ![E, 1]⟩ .f32) (w : FVec Ideal ⟨2, ![1, H]⟩ .f32)
    (b : FVec Ideal ⟨2, ![1, H]⟩ .f32) (e : Fin E) (h : Fin H) : EReal :=
  a (ix2 e (0 : Fin 1)) * w (ix2 (0 : Fin 1) h) + b (ix2 (0 : Fin 1) h)

/-- The edge transform as a whole matrix. -/
def edge {E H : Nat} (a : FVec Ideal ⟨2, ![E, 1]⟩ .f32) (w : FVec Ideal ⟨2, ![1, H]⟩ .f32)
    (b : FVec Ideal ⟨2, ![1, H]⟩ .f32) : FVec Ideal ⟨2, ![E, H]⟩ .f32 :=
  fun i => edgeAt a w b (i 0) (i 1)

theorem edge_apply {E H : Nat} (a : FVec Ideal ⟨2, ![E, 1]⟩ .f32) (w : FVec Ideal ⟨2, ![1, H]⟩ .f32)
    (b : FVec Ideal ⟨2, ![1, H]⟩ .f32) (e : Fin E) (h : Fin H) :
    edge a w b (ix2 e h) = edgeAt a w b e h := rfl

/-- A vector read as a one-row matrix. -/
def asRow {N : Nat} (b : FVec Ideal ⟨1, ![N]⟩ .f32) : FVec Ideal ⟨2, ![1, N]⟩ .f32 :=
  fun i => b (ix1 (i 1))

theorem asRow_apply {N : Nat} (b : FVec Ideal ⟨1, ![N]⟩ .f32) (z : Fin 1) (q : Fin N) :
    asRow b (ix2 z q) = b (ix1 q) := rfl

end Cert.Spec

end
-- ==== Proof.KStages.lean ====
/-
  The kernel program's stages as functions of their operands: a dense stage over the bias read as a one-row matrix
  by a reshape, the edge stage likewise, and the kernel's gather of rows, which fills a row whose (wrapped) index lies
  outside 0 … 49999 with the not-a-number pattern instead of clamping the index.
-/
import proofs.«420017_j33689723470134_1_alg».proof.Proof.Gen.KernelIdeal
import proofs.«420017_j33689723470134_1_alg».proof.Proof.Spec

noncomputable section

namespace Cert.KernelIdeal.Stage

open Cert.KernelIdeal Cert.KernelIdeal.Gen Idealize.ShloMosaic

/-- x·W1 + b1 over 50000 nodes. -/
def kdense1 (x : FVec Ideal S50000x128 .f32) (w : FVec Ideal S128x96 .f32) (b : FVec Ideal S96 .f32) : FVec Ideal S50000x96 .f32 :=
  Cert.Spec.dense x w (shapeCast S1x96 b shapeCasts_S96_S1x96)

/-- h·W2 + b2 over 50000 nodes. -/
def kdense2 (x : FVec Ideal S50000x96 .f32) (w : FVec Ideal S96x96 .f32) (b : FVec Ideal S96 .f32) : FVec Ideal S50000x96 .f32 :=
  Cert.Spec.dense x w (shapeCast S1x96 b shapeCasts_S96_S1x96)

/-- pooled·Wout + bout over 64 graphs. -/
def kdense3 (x : FVec Ideal S64x96 .f32) (w : FVec Ideal S96x10 .f32) (b : FVec Ideal S10 .f32) : FVec Ideal S64x10 .f32 :=
  Cert.Spec.dense x w (shapeCast S1x10 b shapeCasts_S10_S1x10)

/-- attr·eW + eb over 800000 edges. -/
def kedge (a : FVec Ideal S800000x1 .f32) (w : FVec Ideal S1x96 .f32) (b : FVec Ideal S96 .f32) : FVec Ideal S800000x96 .f32 :=
  Cert.Spec.edge a w (shapeCast S1x96 b shapeCasts_S96_S1x96)

/-- The kernel's gather of the rows of h at the edges' sources s: the index wrapped as Python does, the row read at the
    clamped index, and the whole row replaced by the not-a-number pattern where the wrapped index is outside 0 … 49999. -/
def takeRows (h : FVec Ideal S50000x96 .f32) (s : IVec S800000 32) : FVec Ideal S800000x96 .f32 :=
  select
    (broadcastInDim S800000x96 ![0] bcast_S800000_S800000x96_0
      (Host.reduce IntOp.andi
        (andi
          (cmpi .sge
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![] bcast_S_S800000x1 (constantI S_ 32 0#32)))
          (cmpi .sle
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x96_S800000x1_S800000x96_1_0_n_n_0_1_196 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))
    (broadcastInDim S800000x96 ![] bcast_S_S800000x96 (constant S_ .f32 0x7FC00000#32))

end Cert.KernelIdeal.Stage

end
-- ==== Proof.Model.lean ====
/-
  The network both programs compute, as one function of the fourteen argument arrays, with its dense stages, its edge
  stage and its row-gather stage left as parameters.

  With src and dst the two rows of the edge list, one message-passing layer sends node features h (a dense stage's
  result) and edge features e to  relu( sum over the edges into node n of ( h[src(edge)] + e[edge] ) ):  the rows of h
  are gathered by the edges' sources (a negative index counting from the end, as Python indexing does), the edge
  features are added, and the messages are summed into their target nodes. Two such layers are followed by the mean
  of the node features over each graph of the batch (the sum over the graph's nodes divided by the larger of the
  graph's node count and one) and a last dense stage.

  The two programs differ only in how they compute the dense stages, the edge stage and the gather; everything else
  is the same chain of operations, which is stated here once.
-/
import proofs.«420017_j33689723470134_1_alg».proof.Proof.Gen.ReferenceIdeal
import proofs.«420017_j33689723470134_1_alg».proof.Proof.Spec

noncomputable section

namespace Cert.Model

open Cert.ReferenceIdeal Cert.ReferenceIdeal.Gen Idealize.ShloMosaic

/-- Row 0 of the edge list: every edge's source node. -/
def srcOf (ei : IVec S2x800000 32) : IVec S800000 32 :=
  shapeCast _ (extractStridedSlice S1x800000 ![0, 0] ei slices_S2x800000_S1x800000_0_0) shapeCasts_S1x800000_S800000

/-- Row 1 of the edge list: every edge's target node. -/
def dstOf (ei : IVec S2x800000 32) : IVec S800000 32 :=
  shapeCast _ (extractStridedSlice S1x800000 ![1, 0] ei slices_S2x800000_S1x800000_1_0) shapeCasts_S1x800000_S800000

/-- Python's reading of an index: a negative one counts from the end of the 50000 rows. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The rows of h at the wrapped indices, one row per edge (an index past either end is clamped to that end). -/
def rowsAt (h : FVec Ideal S50000x96 .f32) (s : IVec S800000 32) : FVec Ideal S800000x96 .f32 :=
  Host.gather gather_S50000x96_S800000x1_S800000x96_1_0_n_n_0_1_196 h
    (broadcastInDim S800000x1 ![0] bcast_S800000_S800000x1_0 (wrapIdx s))

/-- The messages summed into their target nodes, from zero. -/
def sumInto (d : IVec S800000 32) (msg : FVec Ideal S800000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 d) msg

/-- max(a, 0), entry by entry. -/
def relu (a : FVec Ideal S50000x96 .f32) : FVec Ideal S50000x96 .f32 :=
  maximumf a (broadcastInDim S50000x96 ![] bcast_S_S50000x96 (constant S_ .f32 0x00000000#32))

/-- The mean of the node features over each of the 64 graphs: the sum over the graph's nodes divided by
    max(node count, 1). -/
def meanPool (h : FVec Ideal S50000x96 .f32) (batch : IVec S50000 32) : FVec Ideal S64x96 .f32 :=
  Host.divf
    (Host.scatterAdd scatter_S64x96_S50000x1_S50000x96_1_0_0_1
      (broadcastInDim S64x96 ![] bcast_S_S64x96 (constant S_ .f32 0x00000000#32))
      (broadcastInDim S50000x1 ![0] bcast_S50000_S50000x1_0 batch) h)
    (broadcastInDim S64x96 ![0, 1] bcast_S64x1_S64x96_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 batch)
            (broadcastInDim S50000 ![] bcast_S_S50000 (constant S_ .f32 0x3F800000#32)))
          (broadcastInDim S64 ![] bcast_S_S64 (constant S_ .f32 0x3F800000#32)))))

/-- The whole network over its stages: two message-passing layers, the mean over each graph, a last dense stage. -/
def net
    (dense1 : FVec Ideal S50000x128 .f32 → FVec Ideal S128x96 .f32 → FVec Ideal S96 .f32 → FVec Ideal S50000x96 .f32)
    (dense2 : FVec Ideal S50000x96 .f32 → FVec Ideal S96x96 .f32 → FVec Ideal S96 .f32 → FVec Ideal S50000x96 .f32)
    (dense3 : FVec Ideal S64x96 .f32 → FVec Ideal S96x10 .f32 → FVec Ideal S10 .f32 → FVec Ideal S64x10 .f32)
    (edgeT : FVec Ideal S800000x1 .f32 → FVec Ideal S1x96 .f32 → FVec Ideal S96 .f32 → FVec Ideal S800000x96 .f32)
    (rows : FVec Ideal S50000x96 .f32 → IVec S800000 32 → FVec Ideal S800000x96 .f32)
    (x : FVec Ideal S50000x128 .f32) (ei : IVec S2x800000 32) (ea : FVec Ideal S800000x1 .f32) (batch : IVec S50000 32)
    (W1 : FVec Ideal S128x96 .f32) (b1 : FVec Ideal S96 .f32) (eW1 : FVec Ideal S1x96 .f32) (eb1 : FVec Ideal S96 .f32)
    (W2 : FVec Ideal S96x96 .f32) (b2 : FVec Ideal S96 .f32) (eW2 : FVec Ideal S1x96 .f32) (eb2 : FVec Ideal S96 .f32)
    (Wout : FVec Ideal S96x10 .f32) (bout : FVec Ideal S10 .f32) : FVec Ideal S64x10 .f32 :=
  dense3
    (meanPool
      (relu (sumInto (dstOf ei) (addf
        (rows (dense2
          (relu (sumInto (dstOf ei) (addf (rows (dense1 x W1 b1) (srcOf ei)) (edgeT ea eW1 eb1))))
          W2 b2) (srcOf ei))
        (edgeT ea eW2 eb2))))
      batch)
    Wout bout

/-- Two instances of the network whose stages agree (the gather only at the edge list's own sources) are equal. -/
theorem net_congr
    {dense1 dense1' : FVec Ideal S50000x128 .f32 → FVec Ideal S128x96 .f32 → FVec Ideal S96 .f32 → FVec Ideal S50000x96 .f32}
    {dense2 dense2' : FVec Ideal S50000x96 .f32 → FVec Ideal S96x96 .f32 → FVec Ideal S96 .f32 → FVec Ideal S50000x96 .f32}
    {dense3 dense3' : FVec Ideal S64x96 .f32 → FVec Ideal S96x10 .f32 → FVec Ideal S10 .f32 → FVec Ideal S64x10 .f32}
    {edgeT edgeT' : FVec Ideal S800000x1 .f32 → FVec Ideal S1x96 .f32 → FVec Ideal S96 .f32 → FVec Ideal S800000x96 .f32}
    {rows rows' : FVec Ideal S50000x96 .f32 → IVec S800000 32 → FVec Ideal S800000x96 .f32}
    (x : FVec Ideal S50000x128 .f32) (ei : IVec S2x800000 32) (ea : FVec Ideal S800000x1 .f32) (batch : IVec S50000 32)
    (W1 : FVec Ideal S128x96 .f32) (b1 : FVec Ideal S96 .f32) (eW1 : FVec Ideal S1x96 .f32) (eb1 : FVec Ideal S96 .f32)
    (W2 : FVec Ideal S96x96 .f32) (b2 : FVec Ideal S96 .f32) (eW2 : FVec Ideal S1x96 .f32) (eb2 : FVec Ideal S96 .f32)
    (Wout : FVec Ideal S96x10 .f32) (bout : FVec Ideal S10 .f32)
    (h1 : ∀ a w b, dense1 a w b = dense1' a w b) (h2 : ∀ a w b, dense2 a w b = dense2' a w b)
    (h3 : ∀ a w b, dense3 a w b = dense3' a w b) (he : ∀ a w b, edgeT a w b = edgeT' a w b)
    (hr : ∀ h, rows h (srcOf ei) = rows' h (srcOf ei)) :
    net dense1 dense2 dense3 edgeT rows x ei ea batch W1 b1 eW1 eb1 W2 b2 eW2 eb2 Wout bout
      = net dense1' dense2' dense3' edgeT' rows' x ei ea batch W1 b1 eW1 eb1 W2 b2 eW2 eb2 Wout bout := by
  unfold net
  rw [h1, he, hr, h2, he, hr, h3]

end Cert.Model

end
-- ==== Proof.Dense0.lean ====
/-
  The first dense kernel's output array after its ten grid points: block t holds rows 5000·t … 5000·t + 4999 of x·W1 + b1,
  and the ten blocks tile the 50000 rows.
-/
import proofs.«420017_j33689723470134_1_alg».proof.Proof.Gen.KernelIdeal.Frame
import proofs.«420017_j33689723470134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage.Dense0

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of the value the body stores -/

/-- The left operand's index has the output's row as its row … -/
theorem lhs_row (i : S5000x96.Idx) (q : dot_S5000x128_S128x96_S5000x96_1_0_0_1_n_n.contr.Idx) :
    (dot_S5000x128_S128x96_S5000x96_1_0_0_1_n_n.lhsIdx i q 0).val = (i 0).val := by
  unfold DotDims.lhsIdx
  rw [dif_neg (show ¬(0 : Fin S5000x128.rank) ∈ dot_S5000x128_S128x96_S5000x96_1_0_0_1_n_n.lhsBatch by decide), dif_pos (show (0 : Fin S5000x128.rank) ∈ dot_S5000x128_S128x96_S5000x96_1_0_0_1_n_n.lhsNonContracting by decide)]
  rfl
/-- … and the contracted coordinate as its column. -/
theorem lhs_col (i : S5000x96.Idx) (q : dot_S5000x128_S128x96_S5000x96_1_0_0_1_n_n.contr.Idx) :
    (dot_S5000x128_S128x96_S5000x96_1_0_0_1_n_n.lhsIdx i q 1).val = (q ⟨0, by decide⟩).val :=
  dot_S5000x128_S128x96_S5000x96_1_0_0_1_n_n.lhsIdx_val_of_single rfl i q
/-- The right operand's index has the contracted coordinate as its row … -/
theorem rhs_row (i : S5000x96.Idx) (q : dot_S5000x128_S128x96_S5000x96_1_0_0_1_n_n.contr.Idx) :
    (dot_S5000x128_S128x96_S5000x96_1_0_0_1_n_n.rhsIdx i q 0).val = (q ⟨0, by decide⟩).val :=
  dot_S5000x128_S128x96_S5000x96_1_0_0_1_n_n.rhsIdx_val_of_single rfl i q
/-- … and the output's column as its column. -/
theorem rhs_col (i : S5000x96.Idx) (q : dot_S5000x128_S128x96_S5000x96_1_0_0_1_n_n.contr.Idx) :
    (dot_S5000x128_S128x96_S5000x96_1_0_0_1_n_n.rhsIdx i q 1).val = (i 1).val := by
  unfold DotDims.rhsIdx
  rw [dif_neg (show ¬(1 : Fin S128x96.rank) ∈ dot_S5000x128_S128x96_S5000x96_1_0_0_1_n_n.rhsBatch by decide), dif_pos (show (1 : Fin S128x96.rank) ∈ dot_S5000x128_S128x96_S5000x96_1_0_0_1_n_n.rhsNonContracting by decide)]
  rfl

/-- The block product into a zero accumulator at entry (p, q): row p of the left block against column q of the right
    one, summed over the 128 contracted coordinates. -/
theorem product_apply (a : FVec Ideal S5000x128 .bf16) (b : FVec Ideal S128x96 .bf16) (p : Fin 5000) (q : Fin 96) :
    matmul dot_S5000x128_S128x96_S5000x96_1_0_0_1_n_n none a b (constant (F := Ideal) S5000x96 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x96_S5000x96_1_0_0_1_n_n 128 rfl rfl).symm]
  refine Finset.sum_congr rfl fun k _ => ?_
  have hk := ValueIdx.contrEquiv1_symm_val dot_S5000x128_S128x96_S5000x96_1_0_0_1_n_n 128 rfl rfl k
  have el : dot_S5000x128_S128x96_S5000x96_1_0_0_1_n_n.lhsIdx (ix2 p q) ((ValueIdx.contrEquiv1 dot_S5000x128_S128x96_S5000x96_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x96_S5000x96_1_0_0_1_n_n.rhsIdx (ix2 p q) ((ValueIdx.contrEquiv1 dot_S5000x128_S128x96_S5000x96_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row, cast to its own shape and repeated down the 5000 rows, reads at (p, q) the row's entry q. -/
theorem bias_apply (x2 : Vec Ideal S1x96 .f32) (p : Fin 5000) (q : Fin 96) :
    broadcastTo S5000x96 (shapeCast S1x96 x2 shapeCasts_S1x96_S1x96) broadcasts_S1x96_S5000x96 (ix2 p q) = x2 (ix2 (0 : Fin 1) q) := by
  rw [shapeCast_self]
  refine broadcastTo_apply x2 broadcasts_S1x96_S5000x96 (ix2 p q) (ix2 (0 : Fin 1) q) (fun a => ?_)
  match a with
  | ⟨0, _⟩ => rfl
  | ⟨1, _⟩ => rfl

/-- The value the body stores, at (p, q): both operands pass the narrowing of their format unchanged on the extended
    reals, so it is row p of the x block against column q of the weights, plus the bias row's entry q. -/
theorem stored_apply (x0 : Vec Ideal S5000x128 .f32) (x1 : Vec Ideal S128x96 .f32) (x2 : Vec Ideal S1x96 .f32) (p : Fin 5000) (q : Fin 96) :
    k0_pay1 (F := Ideal) x0 x1 x2 (ix2 p q) = (∑ k : Fin 128, x0 (ix2 p k) * x1 (ix2 k q)) + x2 (ix2 (0 : Fin 1) q) := by
  unfold k0_pay1
  rw [addf_apply, product_apply, bias_apply]
  rfl

/-- The same against whole arrays: if row `i 0` of the x block is row `I 0` of the x array, the other two blocks are
    their arrays, and the two indices name the same column, then the stored value at `i` is the dense layer's entry at `I`. -/
theorem stored_eq_dense (X : FVec Ideal S50000x128 .f32) (W : FVec Ideal S128x96 .f32) (B : FVec Ideal S1x96 .f32)
    (x0 : Vec Ideal S5000x128 .f32) (x1 : Vec Ideal S128x96 .f32) (x2 : Vec Ideal S1x96 .f32)
    (i : S5000x96.Idx) (I : S50000x96.Idx) (hcol : (I 1).val = (i 1).val)
    (h0 : ∀ k : Fin 128, x0 (ix2 (i 0) k) = X (ix2 (I 0) k)) (h1 : ∀ y, x1 y = W y) (h2 : ∀ y, x2 y = B y) :
    k0_pay1 (F := Ideal) x0 x1 x2 i = Cert.Spec.dense X W B I := by
  obtain ⟨p, q, rfl⟩ : ∃ (p : Fin 5000) (q : Fin 96), i = ix2 p q := ⟨i 0, i 1, eq_ix2 i⟩
  obtain ⟨P, Q, rfl⟩ : ∃ (P : Fin 50000) (Q : Fin 96), I = ix2 P Q := ⟨I 0, I 1, eq_ix2 I⟩
  obtain rfl : Q = q := Fin.ext hcol
  rw [stored_apply, Cert.Spec.dense_apply]
  unfold Cert.Spec.denseAt
  rw [h2]
  exact congrArg (· + B (ix2 (0 : Fin 1) Q)) (Finset.sum_congr rfl fun k _ => by rw [h0 k, h1])

/-! ## The windows' blocks as parts of their arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps at every grid point: the x window and the output window are at block row t, block column 0; the
    weights' and the bias row's windows stay at block (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x window's block at point t is rows 5000·t … 5000·t + 4999 of the x array. -/
theorem xBlock_apply (c : Dev nD) (t : Fin cfg0.N) (y : S5000x128.Idx) (Y : S50000x128.Idx)
    (hrow : (Y 0).val = t.val * 5000 + (y 0).val) (hcol : (Y 1).val = (y 1).val) :
    (iblk0 V c 0 t : Vec Ideal S5000x128 .f32) y = (V c main_arg0 : S50000x128.Idx → Elt Ideal .f32) Y := by
  obtain ⟨e00, e01, -⟩ := blockIndex t
  unfold iblk0
  rw [View.read_apply]
  show V c main_arg0 _ = V c main_arg0 _
  congr 1
  funext a
  apply Fin.ext
  match a with
  | ⟨0, _⟩ => show win0_0.index t (0 : Fin 2) * 5000 + 1 * (y 0).val = (Y 0).val; rw [e00, hrow]; omega
  | ⟨1, _⟩ => show win0_0.index t (1 : Fin 2) * 128 + 1 * (y 1).val = (Y 1).val; rw [e01, hcol]; omega

/-- The weights' window's block at every point is the whole weight matrix. -/
theorem wBlock_apply (c : Dev nD) (t : Fin cfg0.N) (y : S128x96.Idx) :
    (iblk0 V c 1 t : Vec Ideal S128x96 .f32) y = (V c main_arg4 : S128x96.Idx → Elt Ideal .f32) y := by
  obtain ⟨-, -, e10, e11, -⟩ := blockIndex t
  unfold iblk0
  rw [View.read_apply]
  show V c main_arg4 _ = V c main_arg4 _
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 96 + 1 * (y 1).val = (y 1).val; rw [e11]; omega

/-- The bias window's block at every point is the whole bias row. -/
theorem bBlock_apply (c : Dev nD) (t : Fin cfg0.N) (y : S1x96.Idx) :
    (iblk0 V c 2 t : Vec Ideal S1x96 .f32) y = (V c main_v4 : S1x96.Idx → Elt Ideal .f32) y := by
  obtain ⟨-, -, -, -, e20, e21, -⟩ := blockIndex t
  unfold iblk0
  rw [View.read_apply]
  show V c main_v4 _ = V c main_v4 _
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 96 + 1 * (y 1).val = (y 1).val; rw [e21]; omega

/-! ## What a point writes back, and the cover -/

/-- Point t writes back block t of the dense layer of the three arrays as the region finds them: the body stores its
    value through the whole staging buffer, having loaded the three blocks whole, and entry (p, q) of that value is
    entry (5000·t + p, q) of the dense layer. -/
theorem writtenBack (c : Dev nD) (t : Fin cfg0.N) :
    (dat0 (F := Ideal) V c).flushed 3 t
      = ((cfg0.win 3).blk t).view.read (Elt Ideal) (Cert.Spec.dense (V c main_arg0) (V c main_arg4) (V c main_v4)) := by
  show (cfg0.win 3).cut (grid0.coords t) ((dat0 (F := Ideal) V c).after 3 t) = _
  rw [after0_3]
  unfold out0_3
  rw [View.canon_unit_zero zeroOffsets]
  simp only [View.ld_unit_zero (S := S5000x128) zeroOffsets, View.ld_unit_zero (S := S128x96) zeroOffsets, View.ld_unit_zero (S := S1x96) zeroOffsets]
  obtain ⟨-, -, -, -, -, -, e30, e31⟩ := blockIndex t
  funext j
  show k0_pay1 (F := Ideal) (iblk0 V c 0 t) (iblk0 V c 1 t) (iblk0 V c 2 t) ((cfg0.win 3).xinj (grid0.coords t) j)
      = Cert.Spec.dense (V c main_arg0) (V c main_arg4) (V c main_v4) (((cfg0.win 3).blk t).view.emb j)
  refine stored_eq_dense _ _ _ _ _ _ _ _ ?_ (fun k => ?_) (wBlock_apply V c t) (bBlock_apply V c t)
  · show win0_3.index t (1 : Fin 2) * 96 + 1 * (j 1).val = (j 1).val
    rw [e31]; omega
  · refine xBlock_apply V c t _ _ ?_ rfl
    show win0_3.index t (0 : Fin 2) * 5000 + 1 * (j 0).val = t.val * 5000 + (j 0).val
    rw [e30]; omega

/-- An index of the output array is in point t's block iff each coordinate is in the block's range on its axis. -/
theorem mem_block (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v5).slice (win0_3.rect t)).set ↔ _
  rw [View.set_slice_whole, Rect.mem_set_unit]
  exact Iff.rfl

/-- Every entry of the output array is written back by some point: row r by point r / 5000. -/
theorem covered (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 10 := N_0
  let t : Fin cfg0.N := ⟨(i 0).val / 5000, by rw [hN]; omega⟩
  have ht : t.val = (i 0).val / 5000 := rfl
  obtain ⟨-, -, -, -, -, -, e30, e31⟩ := blockIndex t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 96 ≤ (i 1).val ∧ (i 1).val < win0_3.index t (1 : Fin 2) * 96 + 96; rw [e31]; omega

end Cert.KernelIdeal.Stage.Dense0

namespace Cert.KernelIdeal.Stage

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The output window's array when the region ends, as one function of the region's three operand arrays as the
    region finds them. -/
theorem dense0 (c : Dev nD) :
    (dat0 (F := Ideal) V c).arrAt 3 cfg0.N
      = Cert.Spec.dense (V c main_arg0) (V c main_arg4) (V c main_v4) :=
  (dat0 (F := Ideal) V c).arrAt_eq_of_cover 3 _ (fun t _ => Dense0.writtenBack V c t) Dense0.covered

end Cert.KernelIdeal.Stage

end
-- ==== Proof.Edge1.lean ====
/-
  The first edge kernel's output array after its hundred grid points: block t holds rows 8000·t … 8000·t + 7999 of
  attr·eW1 + eb1, and the hundred blocks tile the 800000 rows.
-/
import proofs.«420017_j33689723470134_1_alg».proof.Proof.Gen.KernelIdeal.Frame
import proofs.«420017_j33689723470134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One entry of the block the body stores -/

/-- A column of height a broadcast to an a-by-b matrix reads, at (p, q), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry (e, h) of what the body stores: the attribute column's entry e times the weight row's entry h, plus the
    bias row's entry h (the column and the two rows each spread over the 8000 by 96 block, then multiplied and added
    entry by entry). -/
theorem edge1_stored_entry (x0 : Vec Ideal S8000x1 .f32) (x1 x2 : Vec Ideal S1x96 .f32) (e : Fin 8000) (h : Fin 96) :
    k1_pay1 (F := Ideal) x0 x1 x2 (ix2 e h)
      = x0 (ix2 e (0 : Fin 1)) * x1 (ix2 (0 : Fin 1) h) + x2 (ix2 (0 : Fin 1) h) := by
  unfold k1_pay1
  rw [addf_apply, mulf_apply, broadcastTo_a1_ab_apply, broadcastTo_1b_ab_apply, broadcastTo_1b_ab_apply, shapeCast_self]

/-- The same at any index of the block, its two coordinates read off the index. -/
theorem edge1_stored_at (x0 : Vec Ideal S8000x1 .f32) (x1 x2 : Vec Ideal S1x96 .f32) (j : S8000x96.Idx) :
    k1_pay1 (F := Ideal) x0 x1 x2 j
      = x0 (ix2 (j 0) (0 : Fin 1)) * x1 (ix2 (0 : Fin 1) (j 1)) + x2 (ix2 (0 : Fin 1) (j 1)) := by
  obtain ⟨e, h, rfl⟩ : ∃ (e : Fin 8000) (h : Fin 96), j = ix2 e h := ⟨j 0, j 1, eq_ix2 j⟩
  exact edge1_stored_entry x0 x1 x2 e h

/-- One entry of the stored block is one entry of the edge transform of whole arrays, once each of the three values the
    body reads there is known as an entry of its array: the attribute of the array's row, the weight and the bias of
    the array's column. -/
theorem edge1_block_entry (A : FVec Ideal ⟨2, ![800000, 1]⟩ .f32) (W B : FVec Ideal ⟨2, ![1, 96]⟩ .f32)
    (x0 : Vec Ideal S8000x1 .f32) (x1 x2 : Vec Ideal S1x96 .f32) (j : S8000x96.Idx) (i : S800000x96.Idx)
    (h0 : x0 (ix2 (j 0) (0 : Fin 1)) = A (ix2 (i 0) (0 : Fin 1)))
    (h1 : x1 (ix2 (0 : Fin 1) (j 1)) = W (ix2 (0 : Fin 1) (i 1)))
    (h2 : x2 (ix2 (0 : Fin 1) (j 1)) = B (ix2 (0 : Fin 1) (i 1))) :
    k1_pay1 (F := Ideal) x0 x1 x2 j = Cert.Spec.edge A W B i := by
  rw [edge1_stored_at, h0, h1, h2]; rfl

/-! ## What one grid point writes back -/

/-- The body reads and stores its buffers from their first entry. -/
theorem edge1_offsets_zero : (![0, 0] : Fin 2 → Nat) = fun _ => 0 := funext fun a => by fin_cases a <;> rfl

/-- The index maps over the hundred points: the attribute window moves down the rows with the output window, the
    weight row and the bias row stay where they are, and the output's block of rows is the point's number. -/
theorem edge1_index_maps : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the edge transform of the three operand arrays: entry (e, h) of the block
    is the transform's entry (8000·t + e, h), because the attribute block's row e is the array's row 8000·t + e and the
    weight and bias blocks are their whole rows. -/
theorem edge1_written_back (c : Dev nD) (t : Fin cfg1.N) :
    (dat1 (F := Ideal) V c).flushed 3 t
      = ((cfg1.win 3).blk t).view.read (Elt Ideal)
          (Cert.Spec.edge (V c main_arg2) (V c main_arg6) (V c main_v6)) := by
  show (cfg1.win 3).cut (grid1.coords t) ((dat1 V c).after 3 t) = _
  rw [after1_3]
  unfold out1_3
  rw [View.canon_unit_zero edge1_offsets_zero]
  simp only [View.ld_unit_zero (S := S8000x1) edge1_offsets_zero, View.ld_unit_zero (S := S1x96) edge1_offsets_zero]
  obtain ⟨e0, e1, e2, e3, e4, e5, e6, e7⟩ := edge1_index_maps t
  funext j
  have hj0 : (j 0).val < 8000 := (j 0).isLt
  have hj1 : (j 1).val < 96 := (j 1).isLt
  refine edge1_block_entry (V c main_arg2) (V c main_arg6) (V c main_v6)
    (iblk1 V c 0 t) (iblk1 V c 1 t) (iblk1 V c 2 t)
    ((cfg1.win 3).xinj (grid1.coords t) j) (((cfg1.win 3).blk t).view.emb j) ?_ ?_ ?_
  · show V c main_arg2 (((cfg1.win 0).blk t).view.emb (ix2 ⟨(j 0).val, hj0⟩ (0 : Fin 1))) = V c main_arg2 _
    refine congrArg _ (funext fun a => Fin.ext ?_)
    match a with
    | ⟨0, _⟩ =>
      show win1_0.index t (0 : Fin 2) * 8000 + 1 * (j 0).val = win1_3.index t (0 : Fin 2) * 8000 + 1 * (j 0).val
      omega
    | ⟨1, _⟩ => show win1_0.index t (1 : Fin 2) * 1 + 1 * 0 = 0; omega
  · show V c main_arg6 (((cfg1.win 1).blk t).view.emb (ix2 (0 : Fin 1) ⟨(j 1).val, hj1⟩)) = V c main_arg6 _
    refine congrArg _ (funext fun a => Fin.ext ?_)
    match a with
    | ⟨0, _⟩ => show win1_1.index t (0 : Fin 2) * 1 + 1 * 0 = 0; omega
    | ⟨1, _⟩ =>
      show win1_1.index t (1 : Fin 2) * 96 + 1 * (j 1).val = win1_3.index t (1 : Fin 2) * 96 + 1 * (j 1).val
      omega
  · show V c main_v6 (((cfg1.win 2).blk t).view.emb (ix2 (0 : Fin 1) ⟨(j 1).val, hj1⟩)) = V c main_v6 _
    refine congrArg _ (funext fun a => Fin.ext ?_)
    match a with
    | ⟨0, _⟩ => show win1_2.index t (0 : Fin 2) * 1 + 1 * 0 = 0; omega
    | ⟨1, _⟩ =>
      show win1_2.index t (1 : Fin 2) * 96 + 1 * (j 1).val = win1_3.index t (1 : Fin 2) * 96 + 1 * (j 1).val
      omega

/-! ## The hundred blocks tile the array -/

/-- An index of the output array lies in point t's block exactly when each coordinate lies in the block's range on its
    axis. -/
theorem edge1_mem_block (t : Fin cfg1.N) (i : S800000x96.Idx) :
    i ∈ ((cfg1.win 3).blk t).view.set ↔ ∀ a : Fin 2, win1_3.index t a * S8000x96.size a ≤ (i a).val
      ∧ (i a).val < win1_3.index t a * S8000x96.size a + S8000x96.size a := by
  show i ∈ ((View.whole main_v7).slice (win1_3.rect t)).set ↔ _
  rw [View.set_slice_whole, Rect.mem_set_unit]
  exact Iff.rfl

/-- Row r lies in the block of point r / 8000, and every column lies in every block: each index of the array is
    written back by some point. -/
theorem edge1_rows_tiled (i : S800000x96.Idx) :
    ∃ t : Fin cfg1.N, (cfg1.win 3).flush t = true ∧ i ∈ ((cfg1.win 3).blk t).view.set := by
  have hi0 : (i 0).val < 800000 := (i 0).isLt
  have hi1 : (i 1).val < 96 := (i 1).isLt
  have ht : (i 0).val / 8000 < cfg1.N := by
    show (i 0).val / 8000 < grid1.N
    rw [N_1]; omega
  obtain ⟨e0, e1, e2, e3, e4, e5, e6, e7⟩ := edge1_index_maps ⟨(i 0).val / 8000, ht⟩
  have e6' : win1_3.index ⟨(i 0).val / 8000, ht⟩ (0 : Fin 2) = (i 0).val / 8000 := e6
  refine ⟨⟨(i 0).val / 8000, ht⟩, flush1_3 _, ?_⟩
  rw [edge1_mem_block]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    omega
  | ⟨1, _⟩ =>
    show win1_3.index ⟨(i 0).val / 8000, ht⟩ (1 : Fin 2) * 96 ≤ (i 1).val
      ∧ (i 1).val < win1_3.index ⟨(i 0).val / 8000, ht⟩ (1 : Fin 2) * 96 + 96
    omega

/-! ## The array when the region ends -/

/-- The output window's array when the region ends, as one function of the region's three operand arrays as the
    region finds them. -/
theorem edge1 (c : Dev nD) :
    (dat1 (F := Ideal) V c).arrAt 3 cfg1.N
      = Cert.Spec.edge (V c main_arg2) (V c main_arg6) (V c main_v6) :=
  (dat1 (F := Ideal) V c).arrAt_eq_of_cover 3 _ (fun t _ => edge1_written_back V c t) edge1_rows_tiled

end Cert.KernelIdeal.Stage

end
-- ==== Proof.Dense2.lean ====
/-
  The second dense kernel's output array after its ten grid points: block t holds rows 5000·t … 5000·t + 4999 of h·W2 + b2,
  and the ten blocks tile the 50000 rows.
-/
import proofs.«420017_j33689723470134_1_alg».proof.Proof.Gen.KernelIdeal.Frame
import proofs.«420017_j33689723470134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage.Dense2

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of the value the body stores -/

/-- The left operand's index has the output's row as its row … -/
theorem lhs_row (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- … and the contracted coordinate as its column. -/
theorem lhs_col (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
/-- The right operand's index has the contracted coordinate as its row … -/
theorem rhs_row (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
/-- … and the output's column as its column. -/
theorem rhs_col (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The block product into a zero accumulator at entry (p, q): row p of the left block against column q of the right
    one, summed over the 96 contracted coordinates. -/
theorem product_apply (a : FVec Ideal S5000x96 .bf16) (b : FVec Ideal S96x96 .bf16) (p : Fin 5000) (q : Fin 96) :
    matmul dot_S5000x96_S96x96_S5000x96_1_0_0_1_n_n none a b (constant (F := Ideal) S5000x96 .f32 0x00000000#32) (ix2 p q)
      = ∑ k : Fin 96, a (ix2 p k) * b (ix2 k q) := by
  simp only [matmul]
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 p q) ((ValueIdx.contrEquiv1 dot_S5000x96_S96x96_S5000x96_1_0_0_1_n_n 96 rfl rfl).symm k) = ix2 p k := funext fun a => Fin.ext (by
    match a with
    | ⟨0, _⟩ => exact lhs_row _ _
    | ⟨1, _⟩ => exact (lhs_col _ _).trans hk)
  have er : dot_S5000x96_S96x96_S5000x96_1_0_0_1_n_n.rhsIdx (ix2 p q) ((ValueIdx.contrEquiv1 dot_S5000x96_S96x96_S5000x96_1_0_0_1_n_n 96 rfl rfl).symm k) = ix2 k q := funext fun a => Fin.ext (by
    match a with
    | ⟨0, _⟩ => exact (rhs_row _ _).trans hk
    | ⟨1, _⟩ => exact rhs_col _ _)
  rw [el, er]

/-- The bias row, cast to its own shape and repeated down the 5000 rows, reads at (p, q) the row's entry q. -/
theorem bias_apply (x2 : Vec Ideal S1x96 .f32) (p : Fin 5000) (q : Fin 96) :
    broadcastTo S5000x96 (shapeCast S1x96 x2 shapeCasts_S1x96_S1x96) broadcasts_S1x96_S5000x96 (ix2 p q) = x2 (ix2 (0 : Fin 1) q) := by
  rw [shapeCast_self]
  refine broadcastTo_apply x2 broadcasts_S1x96_S5000x96 (ix2 p q) (ix2 (0 : Fin 1) q) (fun a => ?_)
  match a with
  | ⟨0, _⟩ => rfl
  | ⟨1, _⟩ => rfl

/-- The value the body stores, at (p, q): the left block is first cast to its own shape, both operands pass the narrowing
    of their format unchanged on the extended reals, so it is row p of the left block against column q of the weights,
    plus the bias row's entry q. -/
theorem stored_apply (x0 : Vec Ideal S5000x96 .f32) (x1 : Vec Ideal S96x96 .f32) (x2 : Vec Ideal S1x96 .f32) (p : Fin 5000) (q : Fin 96) :
    k2_pay1 (F := Ideal) x0 x1 x2 (ix2 p q) = (∑ k : Fin 96, x0 (ix2 p k) * x1 (ix2 k q)) + x2 (ix2 (0 : Fin 1) q) := by
  unfold k2_pay1
  rw [addf_apply, product_apply, bias_apply, shapeCast_self]
  rfl

/-- The same against whole arrays: if row `i 0` of the left block is row `I 0` of the left array, the other two blocks are
    their arrays, and the two indices name the same column, then the stored value at `i` is the dense layer's entry at `I`. -/
theorem stored_eq_dense (X : FVec Ideal S50000x96 .f32) (W : FVec Ideal S96x96 .f32) (B : FVec Ideal S1x96 .f32)
    (x0 : Vec Ideal S5000x96 .f32) (x1 : Vec Ideal S96x96 .f32) (x2 : Vec Ideal S1x96 .f32)
    (i : S5000x96.Idx) (I : S50000x96.Idx) (hcol : (I 1).val = (i 1).val)
    (h0 : ∀ k : Fin 96, x0 (ix2 (i 0) k) = X (ix2 (I 0) k)) (h1 : ∀ y, x1 y = W y) (h2 : ∀ y, x2 y = B y) :
    k2_pay1 (F := Ideal) x0 x1 x2 i = Cert.Spec.dense X W B I := by
  obtain ⟨p, q, rfl⟩ : ∃ (p : Fin 5000) (q : Fin 96), i = ix2 p q := ⟨i 0, i 1, eq_ix2 i⟩
  obtain ⟨P, Q, rfl⟩ : ∃ (P : Fin 50000) (Q : Fin 96), I = ix2 P Q := ⟨I 0, I 1, eq_ix2 I⟩
  obtain rfl : Q = q := Fin.ext hcol
  rw [stored_apply, Cert.Spec.dense_apply]
  unfold Cert.Spec.denseAt
  rw [h2]
  exact congrArg (· + B (ix2 (0 : Fin 1) Q)) (Finset.sum_congr rfl fun k _ => by rw [h0 k, h1])

/-! ## The windows' blocks as parts of their arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps at every grid point: the left operand's window and the output window are at block row t, block column 0; the
    weights' and the bias row's windows stay at block (0, 0). -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's window's block at point t is rows 5000·t … 5000·t + 4999 of its array. -/
theorem xBlock_apply (c : Dev nD) (t : Fin cfg2.N) (y : S5000x96.Idx) (Y : S50000x96.Idx)
    (hrow : (Y 0).val = t.val * 5000 + (y 0).val) (hcol : (Y 1).val = (y 1).val) :
    (iblk2 V c 0 t : Vec Ideal S5000x96 .f32) y = (V c main_v13 : S50000x96.Idx → Elt Ideal .f32) Y := by
  obtain ⟨e00, e01, -⟩ := blockIndex t
  unfold iblk2
  rw [View.read_apply]
  show V c main_v13 _ = V c main_v13 _
  congr 1
  funext a
  apply Fin.ext
  match a with
  | ⟨0, _⟩ => show win2_0.index t (0 : Fin 2) * 5000 + 1 * (y 0).val = (Y 0).val; rw [e00, hrow]; omega
  | ⟨1, _⟩ => show win2_0.index t (1 : Fin 2) * 96 + 1 * (y 1).val = (Y 1).val; rw [e01, hcol]; omega

/-- The weights' window's block at every point is the whole weight matrix. -/
theorem wBlock_apply (c : Dev nD) (t : Fin cfg2.N) (y : S96x96.Idx) :
    (iblk2 V c 1 t : Vec Ideal S96x96 .f32) y = (V c main_arg8 : S96x96.Idx → Elt Ideal .f32) y := by
  obtain ⟨-, -, e10, e11, -⟩ := blockIndex t
  unfold iblk2
  rw [View.read_apply]
  show V c main_arg8 _ = V c main_arg8 _
  congr 1
  funext a
  apply Fin.ext
  match a with
  | ⟨0, _⟩ => show win2_1.index t (0 : Fin 2) * 96 + 1 * (y 0).val = (y 0).val; rw [e10]; omega
  | ⟨1, _⟩ => show win2_1.index t (1 : Fin 2) * 96 + 1 * (y 1).val = (y 1).val; rw [e11]; omega

/-- The bias window's block at every point is the whole bias row. -/
theorem bBlock_apply (c : Dev nD) (t : Fin cfg2.N) (y : S1x96.Idx) :
    (iblk2 V c 2 t : Vec Ideal S1x96 .f32) y = (V c main_v14 : S1x96.Idx → Elt Ideal .f32) y := by
  obtain ⟨-, -, -, -, e20, e21, -⟩ := blockIndex t
  unfold iblk2
  rw [View.read_apply]
  show V c main_v14 _ = V c main_v14 _
  congr 1
  funext a
  apply Fin.ext
  match a with
  | ⟨0, _⟩ => show win2_2.index t (0 : Fin 2) * 1 + 1 * (y 0).val = (y 0).val; rw [e20]; omega
  | ⟨1, _⟩ => show win2_2.index t (1 : Fin 2) * 96 + 1 * (y 1).val = (y 1).val; rw [e21]; omega

/-! ## What a point writes back, and the cover -/

/-- Point t writes back block t of the dense layer of the three arrays as the region finds them: the body stores its
    value through the whole staging buffer, having loaded the three blocks whole, and entry (p, q) of that value is
    entry (5000·t + p, q) of the dense layer. -/
theorem writtenBack (c : Dev nD) (t : Fin cfg2.N) :
    (dat2 (F := Ideal) V c).flushed 3 t
      = ((cfg2.win 3).blk t).view.read (Elt Ideal) (Cert.Spec.dense (V c main_v13) (V c main_arg8) (V c main_v14)) := by
  show (cfg2.win 3).cut (grid2.coords t) ((dat2 (F := Ideal) V c).after 3 t) = _
  rw [after2_3]
  unfold out2_3
  rw [View.canon_unit_zero zeroOffsets]
  simp only [View.ld_unit_zero (S := S5000x96) zeroOffsets, View.ld_unit_zero (S := S96x96) zeroOffsets, View.ld_unit_zero (S := S1x96) zeroOffsets]
  obtain ⟨-, -, -, -, -, -, e30, e31⟩ := blockIndex t
  funext j
  show k2_pay1 (F := Ideal) (iblk2 V c 0 t) (iblk2 V c 1 t) (iblk2 V c 2 t) ((cfg2.win 3).xinj (grid2.coords t) j)
      = Cert.Spec.dense (V c main_v13) (V c main_arg8) (V c main_v14) (((cfg2.win 3).blk t).view.emb j)
  refine stored_eq_dense _ _ _ _ _ _ _ _ ?_ (fun k => ?_) (wBlock_apply V c t) (bBlock_apply V c t)
  · show win2_3.index t (1 : Fin 2) * 96 + 1 * (j 1).val = (j 1).val
    rw [e31]; omega
  · refine xBlock_apply V c t _ _ ?_ rfl
    show win2_3.index t (0 : Fin 2) * 5000 + 1 * (j 0).val = t.val * 5000 + (j 0).val
    rw [e30]; omega

/-- An index of the output array is in point t's block iff each coordinate is in the block's range on its axis. -/
theorem mem_block (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v15).slice (win2_3.rect t)).set ↔ _
  rw [View.set_slice_whole, Rect.mem_set_unit]
  exact Iff.rfl

/-- Every entry of the output array is written back by some point: row r by point r / 5000. -/
theorem covered (i : S50000x96.Idx) :
    ∃ t : Fin cfg2.N, (cfg2.win 3).flush t = true ∧ i ∈ ((cfg2.win 3).blk t).view.set := by
  have hi0 : (i 0).val < 50000 := (i 0).isLt
  have hi1 : (i 1).val < 96 := (i 1).isLt
  have hN : cfg2.N = 10 := N_2
  let t : Fin cfg2.N := ⟨(i 0).val / 5000, by rw [hN]; omega⟩
  have ht : t.val = (i 0).val / 5000 := rfl
  obtain ⟨-, -, -, -, -, -, e30, e31⟩ := blockIndex t
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 96 ≤ (i 1).val ∧ (i 1).val < win2_3.index t (1 : Fin 2) * 96 + 96; rw [e31]; omega

end Cert.KernelIdeal.Stage.Dense2

namespace Cert.KernelIdeal.Stage

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The output window's array when the region ends, as one function of the region's three operand arrays as the
    region finds them. -/
theorem dense2 (c : Dev nD) :
    (dat2 (F := Ideal) V c).arrAt 3 cfg2.N
      = Cert.Spec.dense (V c main_v13) (V c main_arg8) (V c main_v14) :=
  (dat2 (F := Ideal) V c).arrAt_eq_of_cover 3 _ (fun t _ => Dense2.writtenBack V c t) Dense2.covered

end Cert.KernelIdeal.Stage

end
-- ==== Proof.Edge3.lean ====
/-
  The second edge kernel's output array after its hundred grid points: block t holds rows 8000·t … 8000·t + 7999 of
  attr·eW2 + eb2, and the hundred blocks tile the 800000 rows.
-/
import proofs.«420017_j33689723470134_1_alg».proof.Proof.Gen.KernelIdeal.Frame
import proofs.«420017_j33689723470134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One entry of the block the body stores -/

/-- A column of height a broadcast to an a-by-b matrix reads, at (p, q), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry (e, h) of what the body stores: the attribute column's entry e times the weight row's entry h, plus the
    bias row's entry h (the column and the two rows each spread over the 8000 by 96 block, then multiplied and added
    entry by entry). -/
theorem edge3_stored_entry (x0 : Vec Ideal S8000x1 .f32) (x1 x2 : Vec Ideal S1x96 .f32) (e : Fin 8000) (h : Fin 96) :
    k3_pay1 (F := Ideal) x0 x1 x2 (ix2 e h)
      = x0 (ix2 e (0 : Fin 1)) * x1 (ix2 (0 : Fin 1) h) + x2 (ix2 (0 : Fin 1) h) := by
  unfold k3_pay1
  rw [addf_apply, mulf_apply, broadcastTo_a1_ab_apply, broadcastTo_1b_ab_apply, broadcastTo_1b_ab_apply, shapeCast_self]

/-- The same at any index of the block, its two coordinates read off the index. -/
theorem edge3_stored_at (x0 : Vec Ideal S8000x1 .f32) (x1 x2 : Vec Ideal S1x96 .f32) (j : S8000x96.Idx) :
    k3_pay1 (F := Ideal) x0 x1 x2 j
      = x0 (ix2 (j 0) (0 : Fin 1)) * x1 (ix2 (0 : Fin 1) (j 1)) + x2 (ix2 (0 : Fin 1) (j 1)) := by
  obtain ⟨e, h, rfl⟩ : ∃ (e : Fin 8000) (h : Fin 96), j = ix2 e h := ⟨j 0, j 1, eq_ix2 j⟩
  exact edge3_stored_entry x0 x1 x2 e h

/-- One entry of the stored block is one entry of the edge transform of whole arrays, once each of the three values the
    body reads there is known as an entry of its array: the attribute of the array's row, the weight and the bias of
    the array's column. -/
theorem edge3_block_entry (A : FVec Ideal ⟨2, ![800000, 1]⟩ .f32) (W B : FVec Ideal ⟨2, ![1, 96]⟩ .f32)
    (x0 : Vec Ideal S8000x1 .f32) (x1 x2 : Vec Ideal S1x96 .f32) (j : S8000x96.Idx) (i : S800000x96.Idx)
    (h0 : x0 (ix2 (j 0) (0 : Fin 1)) = A (ix2 (i 0) (0 : Fin 1)))
    (h1 : x1 (ix2 (0 : Fin 1) (j 1)) = W (ix2 (0 : Fin 1) (i 1)))
    (h2 : x2 (ix2 (0 : Fin 1) (j 1)) = B (ix2 (0 : Fin 1) (i 1))) :
    k3_pay1 (F := Ideal) x0 x1 x2 j = Cert.Spec.edge A W B i := by
  rw [edge3_stored_at, h0, h1, h2]; rfl

/-! ## What one grid point writes back -/

/-- The body reads and stores its buffers from their first entry. -/
theorem edge3_offsets_zero : (![0, 0] : Fin 2 → Nat) = fun _ => 0 := funext fun a => by fin_cases a <;> rfl

/-- The index maps over the hundred points: the attribute window moves down the rows with the output window, the
    weight row and the bias row stay where they are, and the output's block of rows is the point's number. -/
theorem edge3_index_maps : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the edge transform of the three operand arrays: entry (e, h) of the block
    is the transform's entry (8000·t + e, h), because the attribute block's row e is the array's row 8000·t + e and the
    weight and bias blocks are their whole rows. -/
theorem edge3_written_back (c : Dev nD) (t : Fin cfg3.N) :
    (dat3 (F := Ideal) V c).flushed 3 t
      = ((cfg3.win 3).blk t).view.read (Elt Ideal)
          (Cert.Spec.edge (V c main_arg2) (V c main_arg10) (V c main_v16)) := by
  show (cfg3.win 3).cut (grid3.coords t) ((dat3 V c).after 3 t) = _
  rw [after3_3]
  unfold out3_3
  rw [View.canon_unit_zero edge3_offsets_zero]
  simp only [View.ld_unit_zero (S := S8000x1) edge3_offsets_zero, View.ld_unit_zero (S := S1x96) edge3_offsets_zero]
  obtain ⟨e0, e1, e2, e3, e4, e5, e6, e7⟩ := edge3_index_maps t
  funext j
  have hj0 : (j 0).val < 8000 := (j 0).isLt
  have hj1 : (j 1).val < 96 := (j 1).isLt
  refine edge3_block_entry (V c main_arg2) (V c main_arg10) (V c main_v16)
    (iblk3 V c 0 t) (iblk3 V c 1 t) (iblk3 V c 2 t)
    ((cfg3.win 3).xinj (grid3.coords t) j) (((cfg3.win 3).blk t).view.emb j) ?_ ?_ ?_
  · show V c main_arg2 (((cfg3.win 0).blk t).view.emb (ix2 ⟨(j 0).val, hj0⟩ (0 : Fin 1))) = V c main_arg2 _
    refine congrArg _ (funext fun a => Fin.ext ?_)
    match a with
    | ⟨0, _⟩ =>
      show win3_0.index t (0 : Fin 2) * 8000 + 1 * (j 0).val = win3_3.index t (0 : Fin 2) * 8000 + 1 * (j 0).val
      omega
    | ⟨1, _⟩ => show win3_0.index t (1 : Fin 2) * 1 + 1 * 0 = 0; omega
  · show V c main_arg10 (((cfg3.win 1).blk t).view.emb (ix2 (0 : Fin 1) ⟨(j 1).val, hj1⟩)) = V c main_arg10 _
    refine congrArg _ (funext fun a => Fin.ext ?_)
    match a with
    | ⟨0, _⟩ => show win3_1.index t (0 : Fin 2) * 1 + 1 * 0 = 0; omega
    | ⟨1, _⟩ =>
      show win3_1.index t (1 : Fin 2) * 96 + 1 * (j 1).val = win3_3.index t (1 : Fin 2) * 96 + 1 * (j 1).val
      omega
  · show V c main_v16 (((cfg3.win 2).blk t).view.emb (ix2 (0 : Fin 1) ⟨(j 1).val, hj1⟩)) = V c main_v16 _
    refine congrArg _ (funext fun a => Fin.ext ?_)
    match a with
    | ⟨0, _⟩ => show win3_2.index t (0 : Fin 2) * 1 + 1 * 0 = 0; omega
    | ⟨1, _⟩ =>
      show win3_2.index t (1 : Fin 2) * 96 + 1 * (j 1).val = win3_3.index t (1 : Fin 2) * 96 + 1 * (j 1).val
      omega

/-! ## The hundred blocks tile the array -/

/-- An index of the output array lies in point t's block exactly when each coordinate lies in the block's range on its
    axis. -/
theorem edge3_mem_block (t : Fin cfg3.N) (i : S800000x96.Idx) :
    i ∈ ((cfg3.win 3).blk t).view.set ↔ ∀ a : Fin 2, win3_3.index t a * S8000x96.size a ≤ (i a).val
      ∧ (i a).val < win3_3.index t a * S8000x96.size a + S8000x96.size a := by
  show i ∈ ((View.whole main_v17).slice (win3_3.rect t)).set ↔ _
  rw [View.set_slice_whole, Rect.mem_set_unit]
  exact Iff.rfl

/-- Row r lies in the block of point r / 8000, and every column lies in every block: each index of the array is
    written back by some point. -/
theorem edge3_rows_tiled (i : S800000x96.Idx) :
    ∃ t : Fin cfg3.N, (cfg3.win 3).flush t = true ∧ i ∈ ((cfg3.win 3).blk t).view.set := by
  have hi0 : (i 0).val < 800000 := (i 0).isLt
  have hi1 : (i 1).val < 96 := (i 1).isLt
  have ht : (i 0).val / 8000 < cfg3.N := by
    show (i 0).val / 8000 < grid3.N
    rw [N_3]; omega
  obtain ⟨e0, e1, e2, e3, e4, e5, e6, e7⟩ := edge3_index_maps ⟨(i 0).val / 8000, ht⟩
  have e6' : win3_3.index ⟨(i 0).val / 8000, ht⟩ (0 : Fin 2) = (i 0).val / 8000 := e6
  refine ⟨⟨(i 0).val / 8000, ht⟩, flush3_3 _, ?_⟩
  rw [edge3_mem_block]
  intro a
  match a with
  | ⟨0, _⟩ =>
    show win3_3.index ⟨(i 0).val / 8000, ht⟩ (0 : Fin 2) * 8000 ≤ (i 0).val
      ∧ (i 0).val < win3_3.index ⟨(i 0).val / 8000, ht⟩ (0 : Fin 2) * 8000 + 8000
    omega
  | ⟨1, _⟩ =>
    show win3_3.index ⟨(i 0).val / 8000, ht⟩ (1 : Fin 2) * 96 ≤ (i 1).val
      ∧ (i 1).val < win3_3.index ⟨(i 0).val / 8000, ht⟩ (1 : Fin 2) * 96 + 96
    omega

/-! ## The array when the region ends -/

/-- The output window's array when the region ends, as one function of the region's three operand arrays as the
    region finds them. -/
theorem edge3 (c : Dev nD) :
    (dat3 (F := Ideal) V c).arrAt 3 cfg3.N
      = Cert.Spec.edge (V c main_arg2) (V c main_arg10) (V c main_v16) :=
  (dat3 (F := Ideal) V c).arrAt_eq_of_cover 3 _ (fun t _ => edge3_written_back V c t) edge3_rows_tiled

end Cert.KernelIdeal.Stage

end
-- ==== Proof.Dense4.lean ====
/-
  The last dense kernel's output array after its one grid point: the whole 64 by 10 matrix pooled·Wout + bout.
-/
import proofs.«420017_j33689723470134_1_alg».proof.Proof.Gen.KernelIdeal.Frame
import proofs.«420017_j33689723470134_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage.Dense4

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of the value the body stores -/

/-- The left operand's index has the output's row as its row … -/
theorem lhs_row (i : S64x10.Idx) (q : dot_S64x96_S96x10_S64x10_1_0_0_1_n_n.contr.Idx) :
    (dot_S64x96_S96x10_S64x10_1_0_0_1_n_n.lhsIdx i q 0).val = (i 0).val := by
  unfold DotDims.lhsIdx
  rw [dif_neg (show ¬(0 : Fin S64x96.rank) ∈ dot_S64x96_S96x10_S64x10_1_0_0_1_n_n.lhsBatch by decide), dif_pos (show (0 : Fin S64x96.rank) ∈ dot_S64x96_S96x10_S64x10_1_0_0_1_n_n.lhsNonContracting by decide)]
  rfl
/-- … and the contracted coordinate as its column. -/
theorem lhs_col (i : S64x10.Idx) (q : dot_S64x96_S96x10_S64x10_1_0_0_1_n_n.contr.Idx) :
    (dot_S64x96_S96x10_S64x10_1_0_0_1_n_n.lhsIdx i q 1).val = (q ⟨0, by decide⟩).val :=
  dot_S64x96_S96x10_S64x10_1_0_0_1_n_n.lhsIdx_val_of_single rfl i q
/-- The right operand's index has the contracted coordinate as its row … -/
theorem rhs_row (i : S64x10.Idx) (q : dot_S64x96_S96x10_S64x10_1_0_0_1_n_n.contr.Idx) :
    (dot_S64x96_S96x10_S64x10_1_0_0_1_n_n.rhsIdx i q 0).val = (q ⟨0, by decide⟩).val :=
  dot_S64x96_S96x10_S64x10_1_0_0_1_n_n.rhsIdx_val_of_single rfl i q
/-- … and the output's column as its column. -/
theorem rhs_col (i : S64x10.Idx) (q : dot_S64x96_S96x10_S64x10_1_0_0_1_n_n.contr.Idx) :
    (dot_S64x96_S96x10_S64x10_1_0_0_1_n_n.rhsIdx i q 1).val = (i 1).val := by
  unfold DotDims.rhsIdx
  rw [dif_neg (show ¬(1 : Fin S96x10.rank) ∈ dot_S64x96_S96x10_S64x10_1_0_0_1_n_n.rhsBatch by decide), dif_pos (show (1 : Fin S96x10.rank) ∈ dot_S64x96_S96x10_S64x10_1_0_0_1_n_n.rhsNonContracting by decide)]
  rfl

/-- The product into a zero accumulator at entry (p, q): row p of the left matrix against column q of the right one,
    summed over the 96 contracted coordinates. -/
theorem product_apply (a : FVec Ideal S64x96 .bf16) (b : FVec Ideal S96x10 .bf16) (p : Fin 64) (q : Fin 10) :
    matmul dot_S64x96_S96x10_S64x10_1_0_0_1_n_n none a b (constant (F := Ideal) S64x10 .f32 0x00000000#32) (ix2 p q)
      = ∑ k : Fin 96, a (ix2 p k) * b (ix2 k q) := by
  simp only [matmul]
  rw [Ideal.matmul_constant_zero_apply, ← Equiv.sum_comp (ValueIdx.contrEquiv1 dot_S64x96_S96x10_S64x10_1_0_0_1_n_n 96 rfl rfl).symm]
  refine Finset.sum_congr rfl fun k _ => ?_
  have hk := ValueIdx.contrEquiv1_symm_val dot_S64x96_S96x10_S64x10_1_0_0_1_n_n 96 rfl rfl k
  have el : dot_S64x96_S96x10_S64x10_1_0_0_1_n_n.lhsIdx (ix2 p q) ((ValueIdx.contrEquiv1 dot_S64x96_S96x10_S64x10_1_0_0_1_n_n 96 rfl rfl).symm k) = ix2 p k := funext fun a => Fin.ext (by
    match a with
    | ⟨0, _⟩ => exact lhs_row _ _
    | ⟨1, _⟩ => exact (lhs_col _ _).trans hk)
  have er : dot_S64x96_S96x10_S64x10_1_0_0_1_n_n.rhsIdx (ix2 p q) ((ValueIdx.contrEquiv1 dot_S64x96_S96x10_S64x10_1_0_0_1_n_n 96 rfl rfl).symm k) = ix2 k q := funext fun a => Fin.ext (by
    match a with
    | ⟨0, _⟩ => exact (rhs_row _ _).trans hk
    | ⟨1, _⟩ => exact rhs_col _ _)
  rw [el, er]

/-- The bias row, cast to its own shape and repeated down the 64 rows, reads at (p, q) the row's entry q. -/
theorem bias_apply (x2 : Vec Ideal S1x10 .f32) (p : Fin 64) (q : Fin 10) :
    broadcastTo S64x10 (shapeCast S1x10 x2 shapeCasts_S1x10_S1x10) broadcasts_S1x10_S64x10 (ix2 p q) = x2 (ix2 (0 : Fin 1) q) := by
  rw [shapeCast_self]
  refine broadcastTo_apply x2 broadcasts_S1x10_S64x10 (ix2 p q) (ix2 (0 : Fin 1) q) (fun a => ?_)
  match a with
  | ⟨0, _⟩ => rfl
  | ⟨1, _⟩ => rfl

/-- The value the body stores, at (p, q): the left matrix is first cast to its own shape, both operands pass the
    narrowing of their format unchanged on the extended reals, so it is row p of the left matrix against column q of
    the weights, plus the bias row's entry q. -/
theorem stored_apply (x0 : Vec Ideal S64x96 .f32) (x1 : Vec Ideal S96x10 .f32) (x2 : Vec Ideal S1x10 .f32) (p : Fin 64) (q : Fin 10) :
    k4_pay1 (F := Ideal) x0 x1 x2 (ix2 p q) = (∑ k : Fin 96, x0 (ix2 p k) * x1 (ix2 k q)) + x2 (ix2 (0 : Fin 1) q) := by
  unfold k4_pay1
  rw [addf_apply, product_apply, bias_apply, shapeCast_self]
  rfl

/-- The same against whole arrays: if row `i 0` of the left block is row `I 0` of the left array, the other two
    blocks are their arrays, and the two indices name the same column, then the stored value at `i` is the dense layer's
    entry at `I`. -/
theorem stored_eq_dense (X : FVec Ideal S64x96 .f32) (W : FVec Ideal S96x10 .f32) (B : FVec Ideal S1x10 .f32)
    (x0 : Vec Ideal S64x96 .f32) (x1 : Vec Ideal S96x10 .f32) (x2 : Vec Ideal S1x10 .f32)
    (i : S64x10.Idx) (I : S64x10.Idx) (hcol : (I 1).val = (i 1).val)
    (h0 : ∀ k : Fin 96, x0 (ix2 (i 0) k) = X (ix2 (I 0) k)) (h1 : ∀ y, x1 y = W y) (h2 : ∀ y, x2 y = B y) :
    k4_pay1 (F := Ideal) x0 x1 x2 i = Cert.Spec.dense X W B I := by
  obtain ⟨p, q, rfl⟩ : ∃ (p : Fin 64) (q : Fin 10), i = ix2 p q := ⟨i 0, i 1, eq_ix2 i⟩
  obtain ⟨P, Q, rfl⟩ : ∃ (P : Fin 64) (Q : Fin 10), I = ix2 P Q := ⟨I 0, I 1, eq_ix2 I⟩
  obtain rfl : Q = q := Fin.ext hcol
  rw [stored_apply, Cert.Spec.dense_apply]
  unfold Cert.Spec.denseAt
  rw [h2]
  exact congrArg (· + B (ix2 (0 : Fin 1) Q)) (Finset.sum_congr rfl fun k _ => by rw [h0 k, h1])

/-! ## The windows' blocks as parts of their arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps at the one grid point: every window is at block (0, 0), the point's number being 0. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The left operand's window's block at point t is rows 64·t … 64·t + 63 of its array (all of it: t is 0). -/
theorem xBlock_apply (c : Dev nD) (t : Fin cfg4.N) (y : S64x96.Idx) (Y : S64x96.Idx)
    (hrow : (Y 0).val = t.val * 64 + (y 0).val) (hcol : (Y 1).val = (y 1).val) :
    (iblk4 V c 0 t : Vec Ideal S64x96 .f32) y = (V c main_v35 : S64x96.Idx → Elt Ideal .f32) Y := by
  obtain ⟨e00, e01, -⟩ := blockIndex t
  unfold iblk4
  rw [View.read_apply]
  show V c main_v35 _ = V c main_v35 _
  congr 1
  funext a
  apply Fin.ext
  match a with
  | ⟨0, _⟩ => show win4_0.index t (0 : Fin 2) * 64 + 1 * (y 0).val = (Y 0).val; rw [e00, hrow]; omega
  | ⟨1, _⟩ => show win4_0.index t (1 : Fin 2) * 96 + 1 * (y 1).val = (Y 1).val; rw [e01, hcol]; omega

/-- The weights' window's block is the whole weight matrix. -/
theorem wBlock_apply (c : Dev nD) (t : Fin cfg4.N) (y : S96x10.Idx) :
    (iblk4 V c 1 t : Vec Ideal S96x10 .f32) y = (V c main_arg12 : S96x10.Idx → Elt Ideal .f32) y := by
  obtain ⟨-, -, e10, e11, -⟩ := blockIndex t
  unfold iblk4
  rw [View.read_apply]
  show V c main_arg12 _ = V c main_arg12 _
  congr 1
  funext a
  apply Fin.ext
  match a with
  | ⟨0, _⟩ => show win4_1.index t (0 : Fin 2) * 96 + 1 * (y 0).val = (y 0).val; rw [e10]; omega
  | ⟨1, _⟩ => show win4_1.index t (1 : Fin 2) * 10 + 1 * (y 1).val = (y 1).val; rw [e11]; omega

/-- The bias window's block is the whole bias row. -/
theorem bBlock_apply (c : Dev nD) (t : Fin cfg4.N) (y : S1x10.Idx) :
    (iblk4 V c 2 t : Vec Ideal S1x10 .f32) y = (V c main_v36 : S1x10.Idx → Elt Ideal .f32) y := by
  obtain ⟨-, -, -, -, e20, e21, -⟩ := blockIndex t
  unfold iblk4
  rw [View.read_apply]
  show V c main_v36 _ = V c main_v36 _
  congr 1
  funext a
  apply Fin.ext
  match a with
  | ⟨0, _⟩ => show win4_2.index t (0 : Fin 2) * 1 + 1 * (y 0).val = (y 0).val; rw [e20]; omega
  | ⟨1, _⟩ => show win4_2.index t (1 : Fin 2) * 10 + 1 * (y 1).val = (y 1).val; rw [e21]; omega

/-! ## What the point writes back, and the cover -/

/-- The point writes back the dense layer of the three arrays as the region finds them: the body stores its value
    through the whole staging buffer, having loaded the three blocks whole, and entry (p, q) of that value is entry
    (64·t + p, q) of the dense layer. -/
theorem writtenBack (c : Dev nD) (t : Fin cfg4.N) :
    (dat4 (F := Ideal) V c).flushed 3 t
      = ((cfg4.win 3).blk t).view.read (Elt Ideal) (Cert.Spec.dense (V c main_v35) (V c main_arg12) (V c main_v36)) := by
  show (cfg4.win 3).cut (grid4.coords t) ((dat4 (F := Ideal) V c).after 3 t) = _
  rw [after4_3]
  unfold out4_3
  rw [View.canon_unit_zero zeroOffsets]
  simp only [View.ld_unit_zero (S := S64x96) zeroOffsets, View.ld_unit_zero (S := S96x10) zeroOffsets, View.ld_unit_zero (S := S1x10) zeroOffsets]
  obtain ⟨-, -, -, -, -, -, e30, e31⟩ := blockIndex t
  funext j
  show k4_pay1 (F := Ideal) (iblk4 V c 0 t) (iblk4 V c 1 t) (iblk4 V c 2 t) ((cfg4.win 3).xinj (grid4.coords t) j)
      = Cert.Spec.dense (V c main_v35) (V c main_arg12) (V c main_v36) (((cfg4.win 3).blk t).view.emb j)
  refine stored_eq_dense _ _ _ _ _ _ _ _ ?_ (fun k => ?_) (wBlock_apply V c t) (bBlock_apply V c t)
  · show win4_3.index t (1 : Fin 2) * 10 + 1 * (j 1).val = (j 1).val
    rw [e31]; omega
  · refine xBlock_apply V c t _ _ ?_ rfl
    show win4_3.index t (0 : Fin 2) * 64 + 1 * (j 0).val = t.val * 64 + (j 0).val
    rw [e30]; omega

/-- An index of the output array is in point t's block iff each coordinate is in the block's range on its axis. -/
theorem mem_block (t : Fin cfg4.N) (i : S64x10.Idx) :
    i ∈ ((cfg4.win 3).blk t).view.set ↔ ∀ a : Fin 2, win4_3.index t a * S64x10.size a ≤ (i a).val ∧ (i a).val < win4_3.index t a * S64x10.size a + S64x10.size a := by
  show i ∈ ((View.whole main_v37).slice (win4_3.rect t)).set ↔ _
  rw [View.set_slice_whole, Rect.mem_set_unit]
  exact Iff.rfl

/-- Every entry of the output array is written back by the one point (row r by point r / 64, which is 0). -/
theorem covered (i : S64x10.Idx) :
    ∃ t : Fin cfg4.N, (cfg4.win 3).flush t = true ∧ i ∈ ((cfg4.win 3).blk t).view.set := by
  have hi0 : (i 0).val < 64 := (i 0).isLt
  have hi1 : (i 1).val < 10 := (i 1).isLt
  have hN : cfg4.N = 1 := N_4
  let t : Fin cfg4.N := ⟨(i 0).val / 64, by rw [hN]; omega⟩
  have ht : t.val = (i 0).val / 64 := rfl
  obtain ⟨-, -, -, -, -, -, e30, e31⟩ := blockIndex t
  refine ⟨t, flush4_3 t, ?_⟩
  rw [mem_block]
  intro a
  match a with
  | ⟨0, _⟩ => show win4_3.index t (0 : Fin 2) * 64 ≤ (i 0).val ∧ (i 0).val < win4_3.index t (0 : Fin 2) * 64 + 64; rw [e30, ht]; omega
  | ⟨1, _⟩ => show win4_3.index t (1 : Fin 2) * 10 ≤ (i 1).val ∧ (i 1).val < win4_3.index t (1 : Fin 2) * 10 + 10; rw [e31]; omega

end Cert.KernelIdeal.Stage.Dense4

namespace Cert.KernelIdeal.Stage

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The output window's array when the region ends, as one function of the region's three operand arrays as the
    region finds them. -/
theorem dense4 (c : Dev nD) :
    (dat4 (F := Ideal) V c).arrAt 3 cfg4.N
      = Cert.Spec.dense (V c main_v35) (V c main_arg12) (V c main_v36) :=
  (dat4 (F := Ideal) V c).arrAt_eq_of_cover 3 _ (fun t _ => Dense4.writtenBack V c t) Dense4.covered

end Cert.KernelIdeal.Stage

end
-- ==== Proof.GatherReads.lean ====
/-
  The two gather stretches of the kernel program (twenty-three host operations each: the index wrapped, the range
  test, the gather at the clamped index, the fill), read as one function of the two buffers they read: the rows'
  array and the edges' sources.

  Each stretch is read in three runs, so that every run's result is a small term: the first eight operations leave
  the wrapped index as a column; the next ten leave the range test of that column; the last five gather at the
  column and fill where the test fails. A run reads the buffers of the runs before it as they stand.
-/
import proofs.«420017_j33689723470134_1_alg».proof.Proof.Gen.KernelIdeal.Frame
import proofs.«420017_j33689723470134_1_alg».proof.Proof.KStages
import Idealize.ShloMosaic.Lib.StableHlo.Run

set_option maxRecDepth 16384

noncomputable section

namespace Cert.KernelIdeal.Stage.GatherStretch

open Cert.KernelIdeal Cert.KernelIdeal.Gen Idealize.ShloMosaic Idealize.ShloMosaic.TcCoe Idealize.SL.Sem

/-- Running one list of operations and then another is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- Contents carried to a buffer's own type and back are the contents. -/
theorem ofBuf_toBuf {T : BufTy} (x : StableHlo.TRef sig T) (v : T.Contents (Elt Ideal)) : x.ofBuf (x.toBuf v) = v := by
  unfold StableHlo.TRef.ofBuf StableHlo.TRef.toBuf
  rw [cast_cast, cast_eq]

/-! ## The gather of rows in three parts -/

/-- The sources' indices wrapped (a negative index has 50000 added), as a column. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The range test on a column of indices, 0 ≤ index ≤ 49999, reduced over the column's one entry per row. -/
def inRange (i : IVec S800000x1 32) : IVec S800000 1 :=
  Host.reduce IntOp.andi
    (andi
      (cmpi .sge i (broadcastInDim S800000x1 ![] bcast_S_S800000x1 (constantI S_ 32 0#32)))
      (cmpi .sle i
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows gathered at a column of indices, a row replaced by the not-a-number pattern where the test `ok` fails. -/
def fillRows (h : FVec Ideal S50000x96 .f32) (i : IVec S800000x1 32) (ok : IVec S800000 1) : FVec Ideal S800000x96 .f32 :=
  select (broadcastInDim S800000x96 ![0] bcast_S800000_S800000x96_0 ok)
    (Host.gather gather_S50000x96_S800000x1_S800000x96_1_0_n_n_0_1_196 h i)
    (broadcastInDim S800000x96 ![] bcast_S_S800000x96 (constant S_ .f32 0x7FC00000#32))

/-- The kernel's gather of rows is those three parts composed: the test and the gather both read the wrapped column. -/
theorem takeRows_eq (h : FVec Ideal S50000x96 .f32) (s : IVec S800000 32) :
    takeRows h s = fillRows h (wrapCol s) (inRange (wrapCol s)) := rfl

/-! ## The first layer's stretch -/

/-- The stretch as three runs: eight, ten and five operations. -/
theorem split0 : (hostOps2 : List (HloOp τ sig (Elt Ideal)))
    = hostOps2.take 8 ++ ((hostOps2.drop 8).take 10 ++ hostOps2.drop 18) := rfl

/-- The first run leaves the wrapped sources as a column … -/
theorem wrap_read0 (V : Valuation τ sig (Elt Ideal)) :
    StableHlo.after ((hostOps2 : List (HloOp τ sig (Elt Ideal))).take 8) V (Proc.devRef .tc main_call0_v5)
      = wrapCol (V (Proc.devRef .tc main_v1)) := by
  simp only [List.take_succ_cons, List.take_zero]
  after_results
  rfl
/-- … and does not write the rows' array. -/
theorem wrap_keeps0 (V : Valuation τ sig (Elt Ideal)) :
    StableHlo.after ((hostOps2 : List (HloOp τ sig (Elt Ideal))).take 8) V (Proc.devRef .tc main_v5)
      = V (Proc.devRef .tc main_v5) := by
  simp only [List.take_succ_cons, List.take_zero]
  after_results

/-- The second run leaves the range test of the column it finds … -/
theorem test_read0 (V : Valuation τ sig (Elt Ideal)) :
    StableHlo.after (((hostOps2 : List (HloOp τ sig (Elt Ideal))).drop 8).take 10) V (Proc.devRef .tc main_call0_v12)
      = inRange (V (Proc.devRef .tc main_call0_v5)) := by
  simp only [List.drop_succ_cons, List.drop_zero, List.take_succ_cons, List.take_zero]
  after_results
  -- the reduction is compared argument by argument, never opened: first every value carried to a buffer's type
  -- and back is put as itself, then the outermost carrying, along an equation of a type with itself, is dropped
  simp only [ofBuf_toBuf]
  refine (cast_eq _ _).trans ?_
  rfl
/-- … and writes neither the column … -/
theorem test_keeps_col0 (V : Valuation τ sig (Elt Ideal)) :
    StableHlo.after (((hostOps2 : List (HloOp τ sig (Elt Ideal))).drop 8).take 10) V (Proc.devRef .tc main_call0_v5)
      = V (Proc.devRef .tc main_call0_v5) := by
  simp only [List.drop_succ_cons, List.drop_zero, List.take_succ_cons, List.take_zero]
  after_results
/-- … nor the rows' array. -/
theorem test_keeps_rows0 (V : Valuation τ sig (Elt Ideal)) :
    StableHlo.after (((hostOps2 : List (HloOp τ sig (Elt Ideal))).drop 8).take 10) V (Proc.devRef .tc main_v5)
      = V (Proc.devRef .tc main_v5) := by
  simp only [List.drop_succ_cons, List.drop_zero, List.take_succ_cons, List.take_zero]
  after_results

/-- The third run gathers the rows at the column it finds and fills by the test it finds. -/
theorem fill_read0 (V : Valuation τ sig (Elt Ideal)) :
    StableHlo.after ((hostOps2 : List (HloOp τ sig (Elt Ideal))).drop 18) V (Proc.devRef .tc main_v8)
      = fillRows (V (Proc.devRef .tc main_v5)) (V (Proc.devRef .tc main_call0_v5)) (V (Proc.devRef .tc main_call0_v12)) := by
  simp only [List.drop_succ_cons, List.drop_zero]
  after_results
  rfl

/-! ## The second layer's stretch -/

/-- The stretch as three runs: eight, ten and five operations. -/
theorem split2 : (hostOps4 : List (HloOp τ sig (Elt Ideal)))
    = hostOps4.take 8 ++ ((hostOps4.drop 8).take 10 ++ hostOps4.drop 18) := rfl

/-- The first run leaves the wrapped sources as a column … -/
theorem wrap_read2 (V : Valuation τ sig (Elt Ideal)) :
    StableHlo.after ((hostOps4 : List (HloOp τ sig (Elt Ideal))).take 8) V (Proc.devRef .tc main_call2_v5)
      = wrapCol (V (Proc.devRef .tc main_v1)) := by
  simp only [List.take_succ_cons, List.take_zero]
  after_results
  rfl
/-- … and does not write the rows' array. -/
theorem wrap_keeps2 (V : Valuation τ sig (Elt Ideal)) :
    StableHlo.after ((hostOps4 : List (HloOp τ sig (Elt Ideal))).take 8) V (Proc.devRef .tc main_v15)
      = V (Proc.devRef .tc main_v15) := by
  simp only [List.take_succ_cons, List.take_zero]
  after_results

/-- The second run leaves the range test of the column it finds … -/
theorem test_read2 (V : Valuation τ sig (Elt Ideal)) :
    StableHlo.after (((hostOps4 : List (HloOp τ sig (Elt Ideal))).drop 8).take 10) V (Proc.devRef .tc main_call2_v12)
      = inRange (V (Proc.devRef .tc main_call2_v5)) := by
  simp only [List.drop_succ_cons, List.drop_zero, List.take_succ_cons, List.take_zero]
  after_results
  -- the reduction is compared argument by argument, never opened: first every value carried to a buffer's type
  -- and back is put as itself, then the outermost carrying, along an equation of a type with itself, is dropped
  simp only [ofBuf_toBuf]
  refine (cast_eq _ _).trans ?_
  rfl
/-- … and writes neither the column … -/
theorem test_keeps_col2 (V : Valuation τ sig (Elt Ideal)) :
    StableHlo.after (((hostOps4 : List (HloOp τ sig (Elt Ideal))).drop 8).take 10) V (Proc.devRef .tc main_call2_v5)
      = V (Proc.devRef .tc main_call2_v5) := by
  simp only [List.drop_succ_cons, List.drop_zero, List.take_succ_cons, List.take_zero]
  after_results
/-- … nor the rows' array. -/
theorem test_keeps_rows2 (V : Valuation τ sig (Elt Ideal)) :
    StableHlo.after (((hostOps4 : List (HloOp τ sig (Elt Ideal))).drop 8).take 10) V (Proc.devRef .tc main_v15)
      = V (Proc.devRef .tc main_v15) := by
  simp only [List.drop_succ_cons, List.drop_zero, List.take_succ_cons, List.take_zero]
  after_results

/-- The third run gathers the rows at the column it finds and fills by the test it finds. -/
theorem fill_read2 (V : Valuation τ sig (Elt Ideal)) :
    StableHlo.after ((hostOps4 : List (HloOp τ sig (Elt Ideal))).drop 18) V (Proc.devRef .tc main_v18)
      = fillRows (V (Proc.devRef .tc main_v15)) (V (Proc.devRef .tc main_call2_v5)) (V (Proc.devRef .tc main_call2_v12)) := by
  simp only [List.drop_succ_cons, List.drop_zero]
  after_results
  rfl

end Cert.KernelIdeal.Stage.GatherStretch

namespace Cert.KernelIdeal.Stage

open Cert.KernelIdeal Cert.KernelIdeal.Gen Idealize.ShloMosaic Idealize.ShloMosaic.TcCoe Idealize.SL.Sem
open GatherStretch

/-- The first layer's gather stretch writes the gathered (and filled) rows of the first dense region's output. -/
theorem gather_read0 (W : Valuation τ sig (Elt Ideal)) :
    StableHlo.after hostOps2 W (Proc.devRef .tc main_v8)
      = takeRows (W (Proc.devRef .tc main_v5)) (W (Proc.devRef .tc main_v1)) := by
  rw [takeRows_eq, split0, after_append, after_append, fill_read0, test_read0, test_keeps_col0, test_keeps_rows0,
    wrap_read0, wrap_keeps0]

/-- The second layer's gather stretch writes the gathered (and filled) rows of the second dense region's output. -/
theorem gather_read2 (W : Valuation τ sig (Elt Ideal)) :
    StableHlo.after hostOps4 W (Proc.devRef .tc main_v18)
      = takeRows (W (Proc.devRef .tc main_v15)) (W (Proc.devRef .tc main_v1)) := by
  rw [takeRows_eq, split2, after_append, after_append, fill_read2, test_read2, test_keeps_col2, test_keeps_rows2,
    wrap_read2, wrap_keeps2]

end Cert.KernelIdeal.Stage

end
-- ==== Proof.HostReads.lean ====
/-
  What each host stretch of the kernel program writes, as the operation's function of the buffers' contents before the
  stretch: the reshapes of the bias vectors and of the edge list's two rows, the two gathers of rows, the two sums of
  messages into their targets, the two relus, and the mean over each graph.
-/
import proofs.«420017_j33689723470134_1_alg».proof.Proof.Gen.KernelIdeal.Frame
import proofs.«420017_j33689723470134_1_alg».proof.Proof.KStages
import proofs.«420017_j33689723470134_1_alg».proof.Proof.Model
import proofs.«420017_j33689723470134_1_alg».proof.Proof.GatherReads
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem read_v1 (c : Dev nD) : W1 (F := Ideal) m ρ c (Proc.devRef .tc main_v1) = Cert.Model.srcOf (W0 m ρ c (Proc.devRef .tc main_arg1)) := by
  show StableHlo.after hostOps0 (W0 m ρ c) (Proc.devRef .tc main_v1) = _
  generalize W0 m ρ c = V
  after_results
  rfl
theorem read_v3 (c : Dev nD) : W1 (F := Ideal) m ρ c (Proc.devRef .tc main_v3) = Cert.Model.dstOf (W0 m ρ c (Proc.devRef .tc main_arg1)) := by
  show StableHlo.after hostOps0 (W0 m ρ c) (Proc.devRef .tc main_v3) = _
  generalize W0 m ρ c = V
  after_results
  rfl
theorem read_v4 (c : Dev nD) : W1 (F := Ideal) m ρ c (Proc.devRef .tc main_v4) = shapeCast S1x96 (W0 m ρ c (Proc.devRef .tc main_arg5)) shapeCasts_S96_S1x96 := by
  show StableHlo.after hostOps0 (W0 m ρ c) (Proc.devRef .tc main_v4) = _
  generalize W0 m ρ c = V
  after_results
  rfl
theorem read_v6 (c : Dev nD) : W3 (F := Ideal) m ρ c (Proc.devRef .tc main_v6) = shapeCast S1x96 (W2 m ρ c (Proc.devRef .tc main_arg7)) shapeCasts_S96_S1x96 := by
  show StableHlo.after hostOps1 (W2 m ρ c) (Proc.devRef .tc main_v6) = _
  generalize W2 m ρ c = V
  after_results
  rfl
theorem read_v8 (c : Dev nD) : W5 (F := Ideal) m ρ c (Proc.devRef .tc main_v8) = takeRows (W4 m ρ c (Proc.devRef .tc main_v5)) (W4 m ρ c (Proc.devRef .tc main_v1)) :=
  gather_read0 (W4 m ρ c)
theorem read_v12 (c : Dev nD) : W6 (F := Ideal) m ρ c (Proc.devRef .tc main_v12)
    = Cert.Model.sumInto (W5 m ρ c (Proc.devRef .tc main_v3)) (addf (W5 m ρ c (Proc.devRef .tc main_v8)) (W5 m ρ c (Proc.devRef .tc main_v7))) := by
  show StableHlo.after hostOps2_1 (W5 m ρ c) (Proc.devRef .tc main_v12) = _
  generalize W5 m ρ c = V
  after_results
  rfl
theorem read_v13 (c : Dev nD) : W7 (F := Ideal) m ρ c (Proc.devRef .tc main_v13) = Cert.Model.relu (W6 m ρ c (Proc.devRef .tc main_v12)) := by
  show StableHlo.after hostOps2_2 (W6 m ρ c) (Proc.devRef .tc main_v13) = _
  generalize W6 m ρ c = V
  after_results
  rfl
theorem read_v14 (c : Dev nD) : W8 (F := Ideal) m ρ c (Proc.devRef .tc main_v14) = shapeCast S1x96 (W7 m ρ c (Proc.devRef .tc main_arg9)) shapeCasts_S96_S1x96 := by
  show StableHlo.after hostOps2_3 (W7 m ρ c) (Proc.devRef .tc main_v14) = _
  generalize W7 m ρ c = V
  after_results
  rfl
theorem read_v16 (c : Dev nD) : W10 (F := Ideal) m ρ c (Proc.devRef .tc main_v16) = shapeCast S1x96 (W9 m ρ c (Proc.devRef .tc main_arg11)) shapeCasts_S96_S1x96 := by
  show StableHlo.after hostOps3 (W9 m ρ c) (Proc.devRef .tc main_v16) = _
  generalize W9 m ρ c = V
  after_results
  rfl
theorem read_v18 (c : Dev nD) : W12 (F := Ideal) m ρ c (Proc.devRef .tc main_v18) = takeRows (W11 m ρ c (Proc.devRef .tc main_v15)) (W11 m ρ c (Proc.devRef .tc main_v1)) :=
  gather_read2 (W11 m ρ c)
theorem read_v22 (c : Dev nD) : W13 (F := Ideal) m ρ c (Proc.devRef .tc main_v22)
    = Cert.Model.sumInto (W12 m ρ c (Proc.devRef .tc main_v3)) (addf (W12 m ρ c (Proc.devRef .tc main_v18)) (W12 m ρ c (Proc.devRef .tc main_v17))) := by
  show StableHlo.after hostOps4_1 (W12 m ρ c) (Proc.devRef .tc main_v22) = _
  generalize W12 m ρ c = V
  after_results
  rfl
theorem read_v23 (c : Dev nD) : W14 (F := Ideal) m ρ c (Proc.devRef .tc main_v23) = Cert.Model.relu (W13 m ρ c (Proc.devRef .tc main_v22)) := by
  show StableHlo.after hostOps4_2 (W13 m ρ c) (Proc.devRef .tc main_v23) = _
  generalize W13 m ρ c = V
  after_results
  rfl
set_option maxHeartbeats 1000000 in
theorem read_v35 (c : Dev nD) : W15 (F := Ideal) m ρ c (Proc.devRef .tc main_v35)
    = Cert.Model.meanPool (W14 m ρ c (Proc.devRef .tc main_v23)) (W14 m ρ c (Proc.devRef .tc main_arg3)) := by
  show StableHlo.after hostOps4_3 (W14 m ρ c) (Proc.devRef .tc main_v35) = _
  generalize W14 m ρ c = V
  after_results_simp
  rfl
theorem read_v36 (c : Dev nD) : W15 (F := Ideal) m ρ c (Proc.devRef .tc main_v36) = shapeCast S1x10 (W14 m ρ c (Proc.devRef .tc main_arg13)) shapeCasts_S10_S1x10 := by
  show StableHlo.after hostOps4_3 (W14 m ρ c) (Proc.devRef .tc main_v36) = _
  generalize W14 m ρ c = V
  after_results
  rfl

end Cert.KernelIdeal.Stage

end
-- ==== Proof.KernelValue.lean ====
/-
  The kernel program's result buffer at the end of the run, read back through the sixteen segments: the last region's
  output array is the last dense stage of the pooled features; the pooled features are the host's mean over the graphs
  of the second layer's result; each layer's result is the host's relu of the messages summed into their targets, the
  messages being the gathered rows of that layer's dense region plus that layer's edge region; every other buffer a
  segment does not write passes through it unchanged, down to the launch memory.
-/
import proofs.«420017_j33689723470134_1_alg».proof.Proof.Gen.KernelIdeal.Frame
import proofs.«420017_j33689723470134_1_alg».proof.Proof.KStages
import proofs.«420017_j33689723470134_1_alg».proof.Proof.Model
import proofs.«420017_j33689723470134_1_alg».proof.Proof.Dense0
import proofs.«420017_j33689723470134_1_alg».proof.Proof.Edge1
import proofs.«420017_j33689723470134_1_alg».proof.Proof.Dense2
import proofs.«420017_j33689723470134_1_alg».proof.Proof.Edge3
import proofs.«420017_j33689723470134_1_alg».proof.Proof.Dense4
import proofs.«420017_j33689723470134_1_alg».proof.Proof.HostReads
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! The lemmas on the way: what a stretch writes, a buffer through a segment that does not write it, and the values at
    the boundaries from the launch memory up to the last region's entry. -/
namespace Pass

/-! ## What each stretch of host operations writes

Every operation of a stretch writes its one result buffer; the result buffers of a stretch are listed, and a buffer
that is not in the list holds after the stretch what it held before. -/

/-- Each operation's written set is a singleton, and its one member is in the list. -/
local macro "writes_among" : tactic =>
  `(tactic| (simp only [List.Forall, StableHlo.nullary_writes, StableHlo.unary_writes, StableHlo.binary_writes,
      StableHlo.ternary_writes, StableHlo.quaternary_writes, StableHlo.reshape_writes, Finset.singleton_subset_iff,
      List.mem_toFinset]
             repeat' apply And.intro
             all_goals exact List.mem_map_of_mem (by decide)))

/-- The two rows of the edge list and the first bias row. -/
abbrev wr0 : List (Ref sig .tc) := [main_v0, main_v1, main_v2, main_v3, main_v4]
/-- The first edge bias row. -/
abbrev wr1 : List (Ref sig .tc) := [main_v6]
/-- The first gather and its intermediate values. -/
abbrev wr2 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v8]
/-- The first layer's messages and their sum into the targets. -/
abbrev wr2_1 : List (Ref sig .tc) := [main_v9, main_cst, main_v10, main_v11, main_v12]
/-- The first layer's relu. -/
abbrev wr2_2 : List (Ref sig .tc) := [main_call1_cst, main_call1_v0, main_v13]
/-- The second bias row. -/
abbrev wr2_3 : List (Ref sig .tc) := [main_v14]
/-- The second edge bias row. -/
abbrev wr3 : List (Ref sig .tc) := [main_v16]
/-- The second gather and its intermediate values. -/
abbrev wr4 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v18]
/-- The second layer's messages and their sum into the targets. -/
abbrev wr4_1 : List (Ref sig .tc) := [main_v19, main_cst_0, main_v20, main_v21, main_v22]
/-- The second layer's relu. -/
abbrev wr4_2 : List (Ref sig .tc) := [main_call3_cst, main_call3_v0, main_v23]
/-- The mean over each graph and the last bias row. -/
abbrev wr4_3 : List (Ref sig .tc) :=
  [main_cst_1, main_v24, main_v25, main_v26, main_cst_2, main_v27, main_cst_3, main_v28, main_v29, main_v30,
   main_cst_4, main_v31, main_v32, main_v33, main_v34, main_v35, main_v36]

theorem hostOps0_writes : (hostOps0 : List (HloOp τ sig (Elt Ideal))).Forall fun op =>
    op.writes ⊆ (wr0.map (Proc.devRef (τ := τ) .tc)).toFinset := by writes_among
theorem hostOps1_writes : (hostOps1 : List (HloOp τ sig (Elt Ideal))).Forall fun op =>
    op.writes ⊆ (wr1.map (Proc.devRef (τ := τ) .tc)).toFinset := by writes_among
theorem hostOps2_writes : (hostOps2 : List (HloOp τ sig (Elt Ideal))).Forall fun op =>
    op.writes ⊆ (wr2.map (Proc.devRef (τ := τ) .tc)).toFinset := by writes_among
theorem hostOps2_1_writes : (hostOps2_1 : List (HloOp τ sig (Elt Ideal))).Forall fun op =>
    op.writes ⊆ (wr2_1.map (Proc.devRef (τ := τ) .tc)).toFinset := by writes_among
theorem hostOps2_2_writes : (hostOps2_2 : List (HloOp τ sig (Elt Ideal))).Forall fun op =>
    op.writes ⊆ (wr2_2.map (Proc.devRef (τ := τ) .tc)).toFinset := by writes_among
theorem hostOps2_3_writes : (hostOps2_3 : List (HloOp τ sig (Elt Ideal))).Forall fun op =>
    op.writes ⊆ (wr2_3.map (Proc.devRef (τ := τ) .tc)).toFinset := by writes_among
theorem hostOps3_writes : (hostOps3 : List (HloOp τ sig (Elt Ideal))).Forall fun op =>
    op.writes ⊆ (wr3.map (Proc.devRef (τ := τ) .tc)).toFinset := by writes_among
theorem hostOps4_writes : (hostOps4 : List (HloOp τ sig (Elt Ideal))).Forall fun op =>
    op.writes ⊆ (wr4.map (Proc.devRef (τ := τ) .tc)).toFinset := by writes_among
theorem hostOps4_1_writes : (hostOps4_1 : List (HloOp τ sig (Elt Ideal))).Forall fun op =>
    op.writes ⊆ (wr4_1.map (Proc.devRef (τ := τ) .tc)).toFinset := by writes_among
theorem hostOps4_2_writes : (hostOps4_2 : List (HloOp τ sig (Elt Ideal))).Forall fun op =>
    op.writes ⊆ (wr4_2.map (Proc.devRef (τ := τ) .tc)).toFinset := by writes_among
theorem hostOps4_3_writes : (hostOps4_3 : List (HloOp τ sig (Elt Ideal))).Forall fun op =>
    op.writes ⊆ (wr4_3.map (Proc.devRef (τ := τ) .tc)).toFinset := by writes_among

/-! ## A region changes its output array only

A buffer that is none of the region's four window arrays is untouched; an input window's array is never written
back, so it too ends as the region found it. -/

theorem W2_skip (c : Dev nD) (b : Ref sig .tc) (h : b ≠ main_v5) :
    W2 (F := Ideal) m ρ c (Proc.devRef .tc b) = W1 m ρ c (Proc.devRef .tc b) := by
  by_cases hw : ∀ w, Pipeline.arrRef spec0 w ≠ b
  · exact W2_of_ne m ρ c b hw
  · obtain ⟨w, hw⟩ := not_forall.mp hw
    have hw : Pipeline.arrRef spec0 w = b := not_not.mp hw
    subst hw
    have hin : (cfg0.win w).isOut = false := by
      revert h; revert w; decide
    exact (W2_arr m ρ c w).trans (((dat0 (V1 m ρ) c).arrAt_in w hin _).trans (A_eq0 (V1 m ρ) c w))

theorem W4_skip (c : Dev nD) (b : Ref sig .tc) (h : b ≠ main_v7) :
    W4 (F := Ideal) m ρ c (Proc.devRef .tc b) = W3 m ρ c (Proc.devRef .tc b) := by
  by_cases hw : ∀ w, Pipeline.arrRef spec1 w ≠ b
  · exact W4_of_ne m ρ c b hw
  · obtain ⟨w, hw⟩ := not_forall.mp hw
    have hw : Pipeline.arrRef spec1 w = b := not_not.mp hw
    subst hw
    have hin : (cfg1.win w).isOut = false := by
      revert h; revert w; decide
    exact (W4_arr m ρ c w).trans (((dat1 (V3 m ρ) c).arrAt_in w hin _).trans (A_eq1 (V3 m ρ) c w))

theorem W9_skip (c : Dev nD) (b : Ref sig .tc) (h : b ≠ main_v15) :
    W9 (F := Ideal) m ρ c (Proc.devRef .tc b) = W8 m ρ c (Proc.devRef .tc b) := by
  by_cases hw : ∀ w, Pipeline.arrRef spec2 w ≠ b
  · exact W9_of_ne m ρ c b hw
  · obtain ⟨w, hw⟩ := not_forall.mp hw
    have hw : Pipeline.arrRef spec2 w = b := not_not.mp hw
    subst hw
    have hin : (cfg2.win w).isOut = false := by
      revert h; revert w; decide
    exact (W9_arr m ρ c w).trans (((dat2 (V8 m ρ) c).arrAt_in w hin _).trans (A_eq2 (V8 m ρ) c w))

theorem W11_skip (c : Dev nD) (b : Ref sig .tc) (h : b ≠ main_v17) :
    W11 (F := Ideal) m ρ c (Proc.devRef .tc b) = W10 m ρ c (Proc.devRef .tc b) := by
  by_cases hw : ∀ w, Pipeline.arrRef spec3 w ≠ b
  · exact W11_of_ne m ρ c b hw
  · obtain ⟨w, hw⟩ := not_forall.mp hw
    have hw : Pipeline.arrRef spec3 w = b := not_not.mp hw
    subst hw
    have hin : (cfg3.win w).isOut = false := by
      revert h; revert w; decide
    exact (W11_arr m ρ c w).trans (((dat3 (V10 m ρ) c).arrAt_in w hin _).trans (A_eq3 (V10 m ρ) c w))

/-! ## A buffer through one stretch that does not write it -/

theorem W1_skip (c : Dev nD) (b : Ref sig .tc) (h : b ∉ wr0) :
    W1 (F := Ideal) m ρ c (Proc.devRef .tc b) = m ((c.tc : Thread nD τ).loc b) :=
  StableHlo.after_of_writes_sub hostOps0 _ hostOps0_writes h
theorem W3_skip (c : Dev nD) (b : Ref sig .tc) (h : b ∉ wr1) :
    W3 (F := Ideal) m ρ c (Proc.devRef .tc b) = W2 m ρ c (Proc.devRef .tc b) :=
  StableHlo.after_of_writes_sub hostOps1 _ hostOps1_writes h
theorem W5_skip (c : Dev nD) (b : Ref sig .tc) (h : b ∉ wr2) :
    W5 (F := Ideal) m ρ c (Proc.devRef .tc b) = W4 m ρ c (Proc.devRef .tc b) :=
  StableHlo.after_of_writes_sub hostOps2 _ hostOps2_writes h
theorem W6_skip (c : Dev nD) (b : Ref sig .tc) (h : b ∉ wr2_1) :
    W6 (F := Ideal) m ρ c (Proc.devRef .tc b) = W5 m ρ c (Proc.devRef .tc b) :=
  StableHlo.after_of_writes_sub hostOps2_1 _ hostOps2_1_writes h
theorem W7_skip (c : Dev nD) (b : Ref sig .tc) (h : b ∉ wr2_2) :
    W7 (F := Ideal) m ρ c (Proc.devRef .tc b) = W6 m ρ c (Proc.devRef .tc b) :=
  StableHlo.after_of_writes_sub hostOps2_2 _ hostOps2_2_writes h
theorem W8_skip (c : Dev nD) (b : Ref sig .tc) (h : b ∉ wr2_3) :
    W8 (F := Ideal) m ρ c (Proc.devRef .tc b) = W7 m ρ c (Proc.devRef .tc b) :=
  StableHlo.after_of_writes_sub hostOps2_3 _ hostOps2_3_writes h
theorem W10_skip (c : Dev nD) (b : Ref sig .tc) (h : b ∉ wr3) :
    W10 (F := Ideal) m ρ c (Proc.devRef .tc b) = W9 m ρ c (Proc.devRef .tc b) :=
  StableHlo.after_of_writes_sub hostOps3 _ hostOps3_writes h
theorem W12_skip (c : Dev nD) (b : Ref sig .tc) (h : b ∉ wr4) :
    W12 (F := Ideal) m ρ c (Proc.devRef .tc b) = W11 m ρ c (Proc.devRef .tc b) :=
  StableHlo.after_of_writes_sub hostOps4 _ hostOps4_writes h
theorem W13_skip (c : Dev nD) (b : Ref sig .tc) (h : b ∉ wr4_1) :
    W13 (F := Ideal) m ρ c (Proc.devRef .tc b) = W12 m ρ c (Proc.devRef .tc b) :=
  StableHlo.after_of_writes_sub hostOps4_1 _ hostOps4_1_writes h
theorem W14_skip (c : Dev nD) (b : Ref sig .tc) (h : b ∉ wr4_2) :
    W14 (F := Ideal) m ρ c (Proc.devRef .tc b) = W13 m ρ c (Proc.devRef .tc b) :=
  StableHlo.after_of_writes_sub hostOps4_2 _ hostOps4_2_writes h
theorem W15_skip (c : Dev nD) (b : Ref sig .tc) (h : b ∉ wr4_3) :
    W15 (F := Ideal) m ρ c (Proc.devRef .tc b) = W14 m ρ c (Proc.devRef .tc b) :=
  StableHlo.after_of_writes_sub hostOps4_3 _ hostOps4_3_writes h

/-! ## The buffers nothing writes after the first stretch

The fourteen arguments and the two rows of the edge list are read by later segments and written by none of them: at
every boundary they hold what they held after the first stretch. -/

abbrev kept : List (Ref sig .tc) :=
  [main_arg0, main_arg1, main_arg2, main_arg3, main_arg4, main_arg5, main_arg6, main_arg7, main_arg8, main_arg9,
   main_arg10, main_arg11, main_arg12, main_arg13, main_v1, main_v3]

theorem W2_kept (c : Dev nD) (b : Ref sig .tc) (hb : b ∈ kept) :
    W2 (F := Ideal) m ρ c (Proc.devRef .tc b) = W1 m ρ c (Proc.devRef .tc b) :=
  W2_skip m ρ c b ((by decide : ∀ b ∈ kept, b ≠ main_v5) b hb)
theorem W3_kept (c : Dev nD) (b : Ref sig .tc) (hb : b ∈ kept) :
    W3 (F := Ideal) m ρ c (Proc.devRef .tc b) = W1 m ρ c (Proc.devRef .tc b) :=
  (W3_skip m ρ c b ((by decide : ∀ b ∈ kept, b ∉ wr1) b hb)).trans (W2_kept m ρ c b hb)
theorem W4_kept (c : Dev nD) (b : Ref sig .tc) (hb : b ∈ kept) :
    W4 (F := Ideal) m ρ c (Proc.devRef .tc b) = W1 m ρ c (Proc.devRef .tc b) :=
  (W4_skip m ρ c b ((by decide : ∀ b ∈ kept, b ≠ main_v7) b hb)).trans (W3_kept m ρ c b hb)
theorem W5_kept (c : Dev nD) (b : Ref sig .tc) (hb : b ∈ kept) :
    W5 (F := Ideal) m ρ c (Proc.devRef .tc b) = W1 m ρ c (Proc.devRef .tc b) :=
  (W5_skip m ρ c b ((by decide : ∀ b ∈ kept, b ∉ wr2) b hb)).trans (W4_kept m ρ c b hb)
theorem W6_kept (c : Dev nD) (b : Ref sig .tc) (hb : b ∈ kept) :
    W6 (F := Ideal) m ρ c (Proc.devRef .tc b) = W1 m ρ c (Proc.devRef .tc b) :=
  (W6_skip m ρ c b ((by decide : ∀ b ∈ kept, b ∉ wr2_1) b hb)).trans (W5_kept m ρ c b hb)
theorem W7_kept (c : Dev nD) (b : Ref sig .tc) (hb : b ∈ kept) :
    W7 (F := Ideal) m ρ c (Proc.devRef .tc b) = W1 m ρ c (Proc.devRef .tc b) :=
  (W7_skip m ρ c b ((by decide : ∀ b ∈ kept, b ∉ wr2_2) b hb)).trans (W6_kept m ρ c b hb)
theorem W8_kept (c : Dev nD) (b : Ref sig .tc) (hb : b ∈ kept) :
    W8 (F := Ideal) m ρ c (Proc.devRef .tc b) = W1 m ρ c (Proc.devRef .tc b) :=
  (W8_skip m ρ c b ((by decide : ∀ b ∈ kept, b ∉ wr2_3) b hb)).trans (W7_kept m ρ c b hb)
theorem W9_kept (c : Dev nD) (b : Ref sig .tc) (hb : b ∈ kept) :
    W9 (F := Ideal) m ρ c (Proc.devRef .tc b) = W1 m ρ c (Proc.devRef .tc b) :=
  (W9_skip m ρ c b ((by decide : ∀ b ∈ kept, b ≠ main_v15) b hb)).trans (W8_kept m ρ c b hb)
theorem W10_kept (c : Dev nD) (b : Ref sig .tc) (hb : b ∈ kept) :
    W10 (F := Ideal) m ρ c (Proc.devRef .tc b) = W1 m ρ c (Proc.devRef .tc b) :=
  (W10_skip m ρ c b ((by decide : ∀ b ∈ kept, b ∉ wr3) b hb)).trans (W9_kept m ρ c b hb)
theorem W11_kept (c : Dev nD) (b : Ref sig .tc) (hb : b ∈ kept) :
    W11 (F := Ideal) m ρ c (Proc.devRef .tc b) = W1 m ρ c (Proc.devRef .tc b) :=
  (W11_skip m ρ c b ((by decide : ∀ b ∈ kept, b ≠ main_v17) b hb)).trans (W10_kept m ρ c b hb)
theorem W12_kept (c : Dev nD) (b : Ref sig .tc) (hb : b ∈ kept) :
    W12 (F := Ideal) m ρ c (Proc.devRef .tc b) = W1 m ρ c (Proc.devRef .tc b) :=
  (W12_skip m ρ c b ((by decide : ∀ b ∈ kept, b ∉ wr4) b hb)).trans (W11_kept m ρ c b hb)
theorem W13_kept (c : Dev nD) (b : Ref sig .tc) (hb : b ∈ kept) :
    W13 (F := Ideal) m ρ c (Proc.devRef .tc b) = W1 m ρ c (Proc.devRef .tc b) :=
  (W13_skip m ρ c b ((by decide : ∀ b ∈ kept, b ∉ wr4_1) b hb)).trans (W12_kept m ρ c b hb)
theorem W14_kept (c : Dev nD) (b : Ref sig .tc) (hb : b ∈ kept) :
    W14 (F := Ideal) m ρ c (Proc.devRef .tc b) = W1 m ρ c (Proc.devRef .tc b) :=
  (W14_skip m ρ c b ((by decide : ∀ b ∈ kept, b ∉ wr4_2) b hb)).trans (W13_kept m ρ c b hb)
theorem W15_kept (c : Dev nD) (b : Ref sig .tc) (hb : b ∈ kept) :
    W15 (F := Ideal) m ρ c (Proc.devRef .tc b) = W1 m ρ c (Proc.devRef .tc b) :=
  (W15_skip m ρ c b ((by decide : ∀ b ∈ kept, b ∉ wr4_3) b hb)).trans (W14_kept m ρ c b hb)

/-- The fourteen arguments: the first stretch writes none of them either, so they hold their launch contents. -/
abbrev args : List (Ref sig .tc) :=
  [main_arg0, main_arg1, main_arg2, main_arg3, main_arg4, main_arg5, main_arg6, main_arg7, main_arg8, main_arg9,
   main_arg10, main_arg11, main_arg12, main_arg13]

theorem W1_arg (c : Dev nD) (b : Ref sig .tc) (hb : b ∈ args) :
    W1 (F := Ideal) m ρ c (Proc.devRef .tc b) = m ((c.tc : Thread nD τ).loc b) :=
  W1_skip m ρ c b ((by decide : ∀ b ∈ args, b ∉ wr0) b hb)

/-! ## The values at the boundaries, from the launch memory upward

Each region's output array at its exit is the stage of the region's three operands as the region finds them
(the output window's array, then the stage lemma); each host value is its operation's function of values already
named; a value read later than it is written passes through the segments between. -/

/-- The first layer's node features: the relu of the messages summed into their targets, a message being the
    gathered row of the first dense stage plus the first edge stage. -/
def layer1 (c : Dev nD) : FVec Ideal S50000x96 .f32 :=
  Cert.Model.relu (Cert.Model.sumInto (Cert.Model.dstOf (m ((c.tc : Thread nD τ).loc main_arg1)))
    (addf
      (takeRows
        (kdense1 (m ((c.tc : Thread nD τ).loc main_arg0)) (m ((c.tc : Thread nD τ).loc main_arg4))
          (m ((c.tc : Thread nD τ).loc main_arg5)))
        (Cert.Model.srcOf (m ((c.tc : Thread nD τ).loc main_arg1))))
      (kedge (m ((c.tc : Thread nD τ).loc main_arg2)) (m ((c.tc : Thread nD τ).loc main_arg6))
        (m ((c.tc : Thread nD τ).loc main_arg7)))))

/-- The second layer's node features, the same over the first layer's. -/
def layer2 (c : Dev nD) : FVec Ideal S50000x96 .f32 :=
  Cert.Model.relu (Cert.Model.sumInto (Cert.Model.dstOf (m ((c.tc : Thread nD τ).loc main_arg1)))
    (addf
      (takeRows
        (kdense2 (layer1 m c) (m ((c.tc : Thread nD τ).loc main_arg8)) (m ((c.tc : Thread nD τ).loc main_arg9)))
        (Cert.Model.srcOf (m ((c.tc : Thread nD τ).loc main_arg1))))
      (kedge (m ((c.tc : Thread nD τ).loc main_arg2)) (m ((c.tc : Thread nD τ).loc main_arg10))
        (m ((c.tc : Thread nD τ).loc main_arg11)))))

/-- The edges' sources and targets, wherever they are read. -/
theorem W1_src (c : Dev nD) :
    W1 (F := Ideal) m ρ c (Proc.devRef .tc main_v1) = Cert.Model.srcOf (m ((c.tc : Thread nD τ).loc main_arg1)) :=
  read_v1 m ρ c
theorem W1_dst (c : Dev nD) :
    W1 (F := Ideal) m ρ c (Proc.devRef .tc main_v3) = Cert.Model.dstOf (m ((c.tc : Thread nD τ).loc main_arg1)) :=
  read_v3 m ρ c

/-- Region 0's output: the first dense stage of the node features. -/
theorem W2_v5 (c : Dev nD) :
    W2 (F := Ideal) m ρ c (Proc.devRef .tc main_v5)
      = kdense1 (m ((c.tc : Thread nD τ).loc main_arg0)) (m ((c.tc : Thread nD τ).loc main_arg4))
          (m ((c.tc : Thread nD τ).loc main_arg5)) := by
  refine (W2_arr m ρ c 3).trans ((dense0 (V1 m ρ) c).trans ?_)
  show Cert.Spec.dense (W1 m ρ c (Proc.devRef .tc main_arg0)) (W1 m ρ c (Proc.devRef .tc main_arg4))
    (W1 m ρ c (Proc.devRef .tc main_v4)) = _
  rw [W1_arg m ρ c main_arg0 (by decide), W1_arg m ρ c main_arg4 (by decide), read_v4 m ρ c]
  rfl

theorem W4_v5 (c : Dev nD) :
    W4 (F := Ideal) m ρ c (Proc.devRef .tc main_v5)
      = kdense1 (m ((c.tc : Thread nD τ).loc main_arg0)) (m ((c.tc : Thread nD τ).loc main_arg4))
          (m ((c.tc : Thread nD τ).loc main_arg5)) :=
  (W4_skip m ρ c main_v5 (by decide)).trans ((W3_skip m ρ c main_v5 (by decide)).trans (W2_v5 m ρ c))

/-- Region 1's output: the first edge stage of the edge attributes. -/
theorem W4_v7 (c : Dev nD) :
    W4 (F := Ideal) m ρ c (Proc.devRef .tc main_v7)
      = kedge (m ((c.tc : Thread nD τ).loc main_arg2)) (m ((c.tc : Thread nD τ).loc main_arg6))
          (m ((c.tc : Thread nD τ).loc main_arg7)) := by
  refine (W4_arr m ρ c 3).trans ((edge1 (V3 m ρ) c).trans ?_)
  show Cert.Spec.edge (W3 m ρ c (Proc.devRef .tc main_arg2)) (W3 m ρ c (Proc.devRef .tc main_arg6))
    (W3 m ρ c (Proc.devRef .tc main_v6)) = _
  rw [(W3_kept m ρ c main_arg2 (by decide)).trans (W1_arg m ρ c main_arg2 (by decide)),
    (W3_kept m ρ c main_arg6 (by decide)).trans (W1_arg m ρ c main_arg6 (by decide)), read_v6 m ρ c,
    (W2_kept m ρ c main_arg7 (by decide)).trans (W1_arg m ρ c main_arg7 (by decide))]
  rfl

/-- The first layer's messages' gathered rows. -/
theorem W5_v8 (c : Dev nD) :
    W5 (F := Ideal) m ρ c (Proc.devRef .tc main_v8)
      = takeRows
          (kdense1 (m ((c.tc : Thread nD τ).loc main_arg0)) (m ((c.tc : Thread nD τ).loc main_arg4))
            (m ((c.tc : Thread nD τ).loc main_arg5)))
          (Cert.Model.srcOf (m ((c.tc : Thread nD τ).loc main_arg1))) := by
  rw [read_v8 m ρ c, W4_v5 m ρ c, (W4_kept m ρ c main_v1 (by decide)).trans (W1_src m ρ c)]

/-- The first layer's node features, after the relu. -/
theorem W7_v13 (c : Dev nD) : W7 (F := Ideal) m ρ c (Proc.devRef .tc main_v13) = layer1 m c := by
  rw [read_v13 m ρ c, read_v12 m ρ c, (W5_kept m ρ c main_v3 (by decide)).trans (W1_dst m ρ c), W5_v8 m ρ c,
    (W5_skip m ρ c main_v7 (by decide)).trans (W4_v7 m ρ c)]
  rfl

/-- Region 2's output: the second dense stage of the first layer's node features. -/
theorem W9_v15 (c : Dev nD) :
    W9 (F := Ideal) m ρ c (Proc.devRef .tc main_v15)
      = kdense2 (layer1 m c) (m ((c.tc : Thread nD τ).loc main_arg8)) (m ((c.tc : Thread nD τ).loc main_arg9)) := by
  refine (W9_arr m ρ c 3).trans ((dense2 (V8 m ρ) c).trans ?_)
  show Cert.Spec.dense (W8 m ρ c (Proc.devRef .tc main_v13)) (W8 m ρ c (Proc.devRef .tc main_arg8))
    (W8 m ρ c (Proc.devRef .tc main_v14)) = _
  rw [(W8_skip m ρ c main_v13 (by decide)).trans (W7_v13 m ρ c),
    (W8_kept m ρ c main_arg8 (by decide)).trans (W1_arg m ρ c main_arg8 (by decide)), read_v14 m ρ c,
    (W7_kept m ρ c main_arg9 (by decide)).trans (W1_arg m ρ c main_arg9 (by decide))]
  rfl

theorem W11_v15 (c : Dev nD) :
    W11 (F := Ideal) m ρ c (Proc.devRef .tc main_v15)
      = kdense2 (layer1 m c) (m ((c.tc : Thread nD τ).loc main_arg8)) (m ((c.tc : Thread nD τ).loc main_arg9)) :=
  (W11_skip m ρ c main_v15 (by decide)).trans ((W10_skip m ρ c main_v15 (by decide)).trans (W9_v15 m ρ c))

/-- Region 3's output: the second edge stage of the edge attributes. -/
theorem W11_v17 (c : Dev nD) :
    W11 (F := Ideal) m ρ c (Proc.devRef .tc main_v17)
      = kedge (m ((c.tc : Thread nD τ).loc main_arg2)) (m ((c.tc : Thread nD τ).loc main_arg10))
          (m ((c.tc : Thread nD τ).loc main_arg11)) := by
  refine (W11_arr m ρ c 3).trans ((edge3 (V10 m ρ) c).trans ?_)
  show Cert.Spec.edge (W10 m ρ c (Proc.devRef .tc main_arg2)) (W10 m ρ c (Proc.devRef .tc main_arg10))
    (W10 m ρ c (Proc.devRef .tc main_v16)) = _
  rw [(W10_kept m ρ c main_arg2 (by decide)).trans (W1_arg m ρ c main_arg2 (by decide)),
    (W10_kept m ρ c main_arg10 (by decide)).trans (W1_arg m ρ c main_arg10 (by decide)), read_v16 m ρ c,
    (W9_kept m ρ c main_arg11 (by decide)).trans (W1_arg m ρ c main_arg11 (by decide))]
  rfl

/-- The second layer's messages' gathered rows. -/
theorem W12_v18 (c : Dev nD) :
    W12 (F := Ideal) m ρ c (Proc.devRef .tc main_v18)
      = takeRows
          (kdense2 (layer1 m c) (m ((c.tc : Thread nD τ).loc main_arg8)) (m ((c.tc : Thread nD τ).loc main_arg9)))
          (Cert.Model.srcOf (m ((c.tc : Thread nD τ).loc main_arg1))) := by
  rw [read_v18 m ρ c, W11_v15 m ρ c, (W11_kept m ρ c main_v1 (by decide)).trans (W1_src m ρ c)]

/-- The second layer's node features, after the relu. -/
theorem W14_v23 (c : Dev nD) : W14 (F := Ideal) m ρ c (Proc.devRef .tc main_v23) = layer2 m c := by
  rw [read_v23 m ρ c, read_v22 m ρ c, (W12_kept m ρ c main_v3 (by decide)).trans (W1_dst m ρ c), W12_v18 m ρ c,
    (W12_skip m ρ c main_v17 (by decide)).trans (W11_v17 m ρ c)]
  rfl

end Pass

open Pass in
/-- The result buffer at the last boundary is the network over the kernel's stages, of the launch contents of the
    fourteen arguments. -/
theorem kernel_value (c : Dev nD) :
    W16 (F := Ideal) m ρ c (Proc.devRef .tc main_v37)
      = Cert.Model.net kdense1 kdense2 kdense3 kedge takeRows
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  refine (W16_arr m ρ c 3).trans ((dense4 (V15 m ρ) c).trans ?_)
  show Cert.Spec.dense (W15 m ρ c (Proc.devRef .tc main_v35)) (W15 m ρ c (Proc.devRef .tc main_arg12))
    (W15 m ρ c (Proc.devRef .tc main_v36)) = _
  rw [read_v35 m ρ c, W14_v23 m ρ c,
    (W14_kept m ρ c main_arg3 (by decide)).trans (W1_arg m ρ c main_arg3 (by decide)),
    (W15_kept m ρ c main_arg12 (by decide)).trans (W1_arg m ρ c main_arg12 (by decide)), read_v36 m ρ c,
    (W14_kept m ρ c main_arg13 (by decide)).trans (W1_arg m ρ c main_arg13 (by decide))]
  unfold Cert.Model.net kdense3 layer2 layer1
  rfl

end Cert.KernelIdeal.Stage

end
-- ==== Proof.RStages.lean ====
/-
  The reference program's stages as functions of their operands (a matrix product on the host plus the bias
  broadcast over the rows), and the reference's result as the network over those stages.
-/
import proofs.«420017_j33689723470134_1_alg».proof.Proof.Gen.ReferenceIdeal.Run
import proofs.«420017_j33689723470134_1_alg».proof.Proof.Model

set_option maxRecDepth 8192

noncomputable section

namespace Cert.ReferenceIdeal.Stage

open Cert.ReferenceIdeal Cert.ReferenceIdeal.Gen Idealize.ShloMosaic Idealize.ShloMosaic.TcCoe Idealize.SL.Sem

/-- x·W1 + b1 over 50000 nodes. -/
def hdense1 (x : FVec Ideal S50000x128 .f32) (w : FVec Ideal S128x96 .f32) (b : FVec Ideal S96 .f32) : FVec Ideal S50000x96 .f32 :=
  addf (Host.dotGeneral dot_S50000x128_S128x96_S50000x96_1_0_0_1_n_n none x w)
    (broadcastInDim S50000x96 ![0, 1] bcast_S1x96_S50000x96_0_1 (broadcastInDim S1x96 ![1] bcast_S96_S1x96_1 b))

/-- h·W2 + b2 over 50000 nodes. -/
def hdense2 (x : FVec Ideal S50000x96 .f32) (w : FVec Ideal S96x96 .f32) (b : FVec Ideal S96 .f32) : FVec Ideal S50000x96 .f32 :=
  addf (Host.dotGeneral dot_S50000x96_S96x96_S50000x96_1_0_0_1_n_n none x w)
    (broadcastInDim S50000x96 ![0, 1] bcast_S1x96_S50000x96_0_1 (broadcastInDim S1x96 ![1] bcast_S96_S1x96_1 b))

/-- pooled·Wout + bout over 64 graphs. -/
def hdense3 (x : FVec Ideal S64x96 .f32) (w : FVec Ideal S96x10 .f32) (b : FVec Ideal S10 .f32) : FVec Ideal S64x10 .f32 :=
  addf (Host.dotGeneral dot_S64x96_S96x10_S64x10_1_0_0_1_n_n none x w)
    (broadcastInDim S64x10 ![0, 1] bcast_S1x10_S64x10_0_1 (broadcastInDim S1x10 ![1] bcast_S10_S1x10_1 b))

/-- attr·eW + eb over 800000 edges. -/
def hedge (a : FVec Ideal S800000x1 .f32) (w : FVec Ideal S1x96 .f32) (b : FVec Ideal S96 .f32) : FVec Ideal S800000x96 .f32 :=
  addf (Host.dotGeneral dot_S800000x1_S1x96_S800000x96_1_0_0_1_n_n none a w)
    (broadcastInDim S800000x96 ![0, 1] bcast_S1x96_S800000x96_0_1 (broadcastInDim S1x96 ![1] bcast_S96_S1x96_1 b))

/-- The reference's result is the network over the host stages and the clamping gather. -/
theorem ref_value (m : (ℓ : Loc nD τ sig) → Buf (Elt Ideal) ℓ) (c : Dev nD) :
    Cert.ReferenceIdeal.Value.res_main_v59 (F := Ideal) m c
      = Cert.Model.net hdense1 hdense2 hdense3 hedge Cert.Model.rowsAt
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.Value.res_main_v59
  rfl

end Cert.ReferenceIdeal.Stage

end
-- ==== Proof.StageEq.lean ====
/-
  The kernel's stages and the reference's are the same functions: a matrix product into a zero accumulator and the
  host's matrix product are the same sum over the contracted coordinate; a product with one contracted coordinate is a
  plain product; a bias reshaped to a one-row matrix and a bias broadcast to one are the same row.
-/
import proofs.«420017_j33689723470134_1_alg».proof.Proof.KStages
import proofs.«420017_j33689723470134_1_alg».proof.Proof.RStages
import proofs.«420017_j33689723470134_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.StageEq

open Idealize.ShloMosaic Idealize.ShloMosaic.ValueIdx

/-! ## The host's matrix product at an entry, over any left operand

Entry (p, q) of the host's product of an M by K matrix with a K by N matrix, contracting the left operand's columns
against the right operand's rows, is the sum over k of x[p,k] * w[k,q]: the contracted index runs over one axis of
size K, and the operands' indices at a contracted value k are (p, k) and (k, q). -/

section Dot

open Cert.ReferenceIdeal Cert.ReferenceIdeal.Gen Cert.ReferenceIdeal.Read

/-- The product [50000,96]·[96,96] at an entry. -/
theorem dot_50000x96_96x96_apply (x : FVec Ideal S50000x96 .f32) (w : FVec Ideal S96x96 .f32) (i : S50000x96.Idx) :
    Host.dotGeneral (F := Ideal) dot_S50000x96_S96x96_S50000x96_1_0_0_1_n_n none x w i
      = ∑ k : Fin 96, x (lidx_main_v24 i k) * w (ridx_main_v24 i k) := by
  simp only [Host.dotGeneral]
  rw [Ideal.dotGeneral_apply, ← Equiv.sum_comp (ValueIdx.contrEquiv1 dot_S50000x96_S96x96_S50000x96_1_0_0_1_n_n 96 rfl rfl).symm]
  refine Finset.sum_congr rfl fun k _ => ?_
  have hk := ValueIdx.contrEquiv1_symm_val dot_S50000x96_S96x96_S50000x96_1_0_0_1_n_n 96 rfl rfl k
  have el : dot_S50000x96_S96x96_S50000x96_1_0_0_1_n_n.lhsIdx i ((ValueIdx.contrEquiv1 dot_S50000x96_S96x96_S50000x96_1_0_0_1_n_n 96 rfl rfl).symm k) = lidx_main_v24 i k := funext fun a => Fin.ext (by
    match a with
    | ⟨0, _⟩ => exact lhs_main_v24_0 _ _
    | ⟨1, _⟩ => exact (lhs_main_v24_1 _ _).trans hk)
  have er : dot_S50000x96_S96x96_S50000x96_1_0_0_1_n_n.rhsIdx i ((ValueIdx.contrEquiv1 dot_S50000x96_S96x96_S50000x96_1_0_0_1_n_n 96 rfl rfl).symm k) = ridx_main_v24 i k := funext fun a => Fin.ext (by
    match a with
    | ⟨0, _⟩ => exact (rhs_main_v24_0 _ _).trans hk
    | ⟨1, _⟩ => exact rhs_main_v24_1 _ _)
  rw [el, er]

/-- The product [64,96]·[96,10] at an entry. -/
theorem dot_64x96_96x10_apply (x : FVec Ideal S64x96 .f32) (w : FVec Ideal S96x10 .f32) (i : S64x10.Idx) :
    Host.dotGeneral (F := Ideal) dot_S64x96_S96x10_S64x10_1_0_0_1_n_n none x w i
      = ∑ k : Fin 96, x (lidx_main_v56 i k) * w (ridx_main_v56 i k) := by
  simp only [Host.dotGeneral]
  rw [Ideal.dotGeneral_apply, ← Equiv.sum_comp (ValueIdx.contrEquiv1 dot_S64x96_S96x10_S64x10_1_0_0_1_n_n 96 rfl rfl).symm]
  refine Finset.sum_congr rfl fun k _ => ?_
  have hk := ValueIdx.contrEquiv1_symm_val dot_S64x96_S96x10_S64x10_1_0_0_1_n_n 96 rfl rfl k
  have el : dot_S64x96_S96x10_S64x10_1_0_0_1_n_n.lhsIdx i ((ValueIdx.contrEquiv1 dot_S64x96_S96x10_S64x10_1_0_0_1_n_n 96 rfl rfl).symm k) = lidx_main_v56 i k := funext fun a => Fin.ext (by
    match a with
    | ⟨0, _⟩ => exact lhs_main_v56_0 _ _
    | ⟨1, _⟩ => exact (lhs_main_v56_1 _ _).trans hk)
  have er : dot_S64x96_S96x10_S64x10_1_0_0_1_n_n.rhsIdx i ((ValueIdx.contrEquiv1 dot_S64x96_S96x10_S64x10_1_0_0_1_n_n 96 rfl rfl).symm k) = ridx_main_v56 i k := funext fun a => Fin.ext (by
    match a with
    | ⟨0, _⟩ => exact (rhs_main_v56_0 _ _).trans hk
    | ⟨1, _⟩ => exact rhs_main_v56_1 _ _)
  rw [el, er]

/-! ## The index maps of the reference's operations are the coordinates

At the entry (p, q) the left operand is read at (p, k), the right at (k, q); the bias broadcast over the rows is
read at (0, q), and the bias row at q. -/

theorem lidx4 (p : Fin 50000) (q : Fin 96) (k : Fin 128) : lidx_main_v4 (ix2 p q) k = ix2 p k :=
  funext fun a => Fin.ext (by match a with | ⟨0, _⟩ => rfl | ⟨1, _⟩ => rfl)
theorem ridx4 (p : Fin 50000) (q : Fin 96) (k : Fin 128) : ridx_main_v4 (ix2 p q) k = ix2 k q :=
  funext fun a => Fin.ext (by match a with | ⟨0, _⟩ => rfl | ⟨1, _⟩ => rfl)
theorem idx6 (p : Fin 50000) (q : Fin 96) : idx_main_v6 (ix2 p q) = ix2 (0 : Fin 1) q :=
  funext fun a => Fin.ext (by match a with | ⟨0, _⟩ => rfl | ⟨1, _⟩ => rfl)
theorem idx5 (z : Fin 1) (q : Fin 96) : idx_main_v5 (ix2 z q) = ix1 q :=
  funext fun a => Fin.ext (by match a with | ⟨0, _⟩ => rfl)

theorem lidx24 (p : Fin 50000) (q : Fin 96) (k : Fin 96) : lidx_main_v24 (ix2 p q) k = ix2 p k :=
  funext fun a => Fin.ext (by match a with | ⟨0, _⟩ => rfl | ⟨1, _⟩ => rfl)
theorem ridx24 (p : Fin 50000) (q : Fin 96) (k : Fin 96) : ridx_main_v24 (ix2 p q) k = ix2 k q :=
  funext fun a => Fin.ext (by match a with | ⟨0, _⟩ => rfl | ⟨1, _⟩ => rfl)
theorem idx26 (p : Fin 50000) (q : Fin 96) : idx_main_v26 (ix2 p q) = ix2 (0 : Fin 1) q :=
  funext fun a => Fin.ext (by match a with | ⟨0, _⟩ => rfl | ⟨1, _⟩ => rfl)
theorem idx25 (z : Fin 1) (q : Fin 96) : idx_main_v25 (ix2 z q) = ix1 q :=
  funext fun a => Fin.ext (by match a with | ⟨0, _⟩ => rfl)

theorem lidx56 (p : Fin 64) (q : Fin 10) (k : Fin 96) : lidx_main_v56 (ix2 p q) k = ix2 p k :=
  funext fun a => Fin.ext (by match a with | ⟨0, _⟩ => rfl | ⟨1, _⟩ => rfl)
theorem ridx56 (p : Fin 64) (q : Fin 10) (k : Fin 96) : ridx_main_v56 (ix2 p q) k = ix2 k q :=
  funext fun a => Fin.ext (by match a with | ⟨0, _⟩ => rfl | ⟨1, _⟩ => rfl)
theorem idx58 (p : Fin 64) (q : Fin 10) : idx_main_v58 (ix2 p q) = ix2 (0 : Fin 1) q :=
  funext fun a => Fin.ext (by match a with | ⟨0, _⟩ => rfl | ⟨1, _⟩ => rfl)
theorem idx57 (z : Fin 1) (q : Fin 10) : idx_main_v57 (ix2 z q) = ix1 q :=
  funext fun a => Fin.ext (by match a with | ⟨0, _⟩ => rfl)

theorem lidx15 (e : Fin 800000) (h : Fin 96) (k : Fin 1) : lidx_main_v15 (ix2 e h) k = ix2 e k :=
  funext fun a => Fin.ext (by match a with | ⟨0, _⟩ => rfl | ⟨1, _⟩ => rfl)
theorem ridx15 (e : Fin 800000) (h : Fin 96) (k : Fin 1) : ridx_main_v15 (ix2 e h) k = ix2 k h :=
  funext fun a => Fin.ext (by match a with | ⟨0, _⟩ => rfl | ⟨1, _⟩ => rfl)
theorem idx17 (e : Fin 800000) (h : Fin 96) : idx_main_v17 (ix2 e h) = ix2 (0 : Fin 1) h :=
  funext fun a => Fin.ext (by match a with | ⟨0, _⟩ => rfl | ⟨1, _⟩ => rfl)
theorem idx16 (z : Fin 1) (h : Fin 96) : idx_main_v16 (ix2 z h) = ix1 h :=
  funext fun a => Fin.ext (by match a with | ⟨0, _⟩ => rfl)

end Dot

open Cert.ReferenceIdeal.Read in
theorem dense1_eq (x : FVec Ideal Cert.KernelIdeal.S50000x128 .f32) (w : FVec Ideal Cert.KernelIdeal.S128x96 .f32) (b : FVec Ideal Cert.KernelIdeal.S96 .f32) :
    Cert.KernelIdeal.Stage.kdense1 x w b = Cert.ReferenceIdeal.Stage.hdense1 x w b := by
  funext i
  obtain ⟨p, q, rfl⟩ : ∃ (p : Fin 50000) (q : Fin 96), i = ix2 p q := ⟨i 0, i 1, eq_ix2 i⟩
  show Cert.Spec.dense x w (shapeCast Cert.KernelIdeal.S1x96 b _) (ix2 p q)
      = val_main_v7 (F := Ideal) x w b (ix2 p q)
  rw [Cert.Spec.dense_apply, val_main_v7_apply, val_main_v4_apply, val_main_v6_apply, val_main_v5_apply]
  unfold Cert.Spec.denseAt
  rw [shapeCast_a_1a_apply, idx6, idx5]
  simp only [lidx4, ridx4, Ideal.addf_def]

open Cert.ReferenceIdeal.Read in
theorem dense2_eq (x : FVec Ideal Cert.KernelIdeal.S50000x96 .f32) (w : FVec Ideal Cert.KernelIdeal.S96x96 .f32) (b : FVec Ideal Cert.KernelIdeal.S96 .f32) :
    Cert.KernelIdeal.Stage.kdense2 x w b = Cert.ReferenceIdeal.Stage.hdense2 x w b := by
  funext i
  obtain ⟨p, q, rfl⟩ : ∃ (p : Fin 50000) (q : Fin 96), i = ix2 p q := ⟨i 0, i 1, eq_ix2 i⟩
  show Cert.Spec.dense x w (shapeCast Cert.KernelIdeal.S1x96 b _) (ix2 p q)
      = FloatOps.addf
          (Host.dotGeneral (F := Ideal) Cert.ReferenceIdeal.dot_S50000x96_S96x96_S50000x96_1_0_0_1_n_n none x w (ix2 p q))
          (val_main_v26 (F := Ideal) b (ix2 p q))
  rw [Cert.Spec.dense_apply, dot_50000x96_96x96_apply, val_main_v26_apply, val_main_v25_apply]
  unfold Cert.Spec.denseAt
  rw [shapeCast_a_1a_apply, idx26, idx25]
  simp only [lidx24, ridx24, Ideal.addf_def]

open Cert.ReferenceIdeal.Read in
theorem dense3_eq (x : FVec Ideal Cert.KernelIdeal.S64x96 .f32) (w : FVec Ideal Cert.KernelIdeal.S96x10 .f32) (b : FVec Ideal Cert.KernelIdeal.S10 .f32) :
    Cert.KernelIdeal.Stage.kdense3 x w b = Cert.ReferenceIdeal.Stage.hdense3 x w b := by
  funext i
  obtain ⟨p, q, rfl⟩ : ∃ (p : Fin 64) (q : Fin 10), i = ix2 p q := ⟨i 0, i 1, eq_ix2 i⟩
  show Cert.Spec.dense x w (shapeCast Cert.KernelIdeal.S1x10 b _) (ix2 p q)
      = FloatOps.addf
          (Host.dotGeneral (F := Ideal) Cert.ReferenceIdeal.dot_S64x96_S96x10_S64x10_1_0_0_1_n_n none x w (ix2 p q))
          (val_main_v58 (F := Ideal) b (ix2 p q))
  rw [Cert.Spec.dense_apply, dot_64x96_96x10_apply, val_main_v58_apply, val_main_v57_apply]
  unfold Cert.Spec.denseAt
  rw [shapeCast_a_1a_apply, idx58, idx57]
  simp only [lidx56, ridx56, Ideal.addf_def]

open Cert.ReferenceIdeal.Read in
theorem edge_eq (a : FVec Ideal Cert.KernelIdeal.S800000x1 .f32) (w : FVec Ideal Cert.KernelIdeal.S1x96 .f32) (b : FVec Ideal Cert.KernelIdeal.S96 .f32) :
    Cert.KernelIdeal.Stage.kedge a w b = Cert.ReferenceIdeal.Stage.hedge a w b := by
  funext i
  obtain ⟨e, h, rfl⟩ : ∃ (e : Fin 800000) (h : Fin 96), i = ix2 e h := ⟨i 0, i 1, eq_ix2 i⟩
  show Cert.Spec.edge a w (shapeCast Cert.KernelIdeal.S1x96 b _) (ix2 e h)
      = val_main_v18 (F := Ideal) a w b (ix2 e h)
  rw [Cert.Spec.edge_apply, val_main_v18_apply, val_main_v15_apply, val_main_v17_apply, val_main_v16_apply,
    Fin.sum_univ_one]
  unfold Cert.Spec.edgeAt
  rw [shapeCast_a_1a_apply, idx17, idx16, lidx15, ridx15]
  simp only [Ideal.addf_def]

end Cert.StageEq

end
-- ==== Proof.TakeRows.lean ====
/-
  Where every source index lies in -50000 … 49999, its wrapped value lies in 0 … 49999, the kernel's range test holds on
  every edge, no row is filled, and the kernel's gather is the clamping gather at the wrapped indices.
-/
import proofs.«420017_j33689723470134_1_alg».proof.Proof.KStages
import proofs.«420017_j33689723470134_1_alg».proof.Proof.Model
import Idealize.ShloMosaic.Lib.ValueIdx
import Idealize.ShloMosaic.Lib.ReduceAll
import Idealize.ShloMosaic.Lib.StableHlo.Predicate

noncomputable section

namespace Cert.KernelIdeal.Stage

open Cert.KernelIdeal Cert.KernelIdeal.Gen Idealize.ShloMosaic

namespace TakeRows

/-- Python's reading of one index word: a negative one counts from the end of the 50000 rows. -/
abbrev wrapWord (a : BitVec 32) : BitVec 32 :=
  Scalar.select (IntOp.cmpi .slt a 0#32) (IntOp.addi a 50000#32) a

/-- The wrapped word by cases on the sign of the word read signed. -/
theorem wrapWord_eq (a : BitVec 32) : wrapWord a = if a.toInt < 0 then a + 50000#32 else a := by
  unfold wrapWord Scalar.select IntOp.cmpi IntOp.addi
  by_cases h : a.toInt < 0
  · have : a.slt 0#32 = true := by simp only [BitVec.slt, decide_eq_true_eq]; simpa using h
    rw [this, if_pos h]; rfl
  · have : a.slt 0#32 = false := by simp only [BitVec.slt, decide_eq_false_iff_not]; simpa using h
    rw [this, if_neg h]; rfl

/-- THE ARITHMETIC FACT. A 32-bit word a with -50000 ≤ a < 50000 (signed) wraps to a word in 0 … 49999: a negative a
    becomes a + 50000, and the sum a + 50000 of 32-bit words does not leave the signed range, so it is the sum of the
    signed values; a non-negative a is kept. -/
theorem wrapWord_range (a : BitVec 32) (h0 : -50000 ≤ a.toInt) (h1 : a.toInt < 50000) :
    0 ≤ (wrapWord a).toInt ∧ (wrapWord a).toInt ≤ 49999 := by
  rw [wrapWord_eq]
  split
  · next hn =>
    have ha := a.isLt
    have e1 := BitVec.toInt_eq_toNat_cond a
    have e2 := BitVec.toInt_eq_toNat_cond (a + 50000#32)
    rw [BitVec.toNat_add] at e2
    simp only [BitVec.toNat_ofNat, Nat.reducePow, Nat.reduceMod] at e1 e2
    constructor <;> omega
  · next hn => omega

/-- The kernel's range test, 0 ≤ w and w ≤ 49999 signed, holds of the wrapped word. -/
theorem test_wrapWord (a : BitVec 32) (h0 : -50000 ≤ a.toInt) (h1 : a.toInt < 50000) :
    IntOp.andi (IntOp.cmpi .sge (wrapWord a) 0#32) (IntOp.cmpi .sle (wrapWord a) 49999#32) = 1#1 := by
  obtain ⟨l, u⟩ := wrapWord_range a h0 h1
  have c0 : (0#32 : BitVec 32).toInt = 0 := by decide
  have c1 : (49999#32 : BitVec 32).toInt = 49999 := by decide
  rw [IntOp.andi_eq_one]
  unfold IntOp.cmpi
  simp only [StableHlo.Predicate.ofBool_eq_one_iff, BitVec.sle, decide_eq_true_eq, c0, c1]
  exact ⟨l, u⟩

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_one f hf l

/-- A reduction by `and` from 1 of an array of bits that are all 1 is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x hx _

/-- A broadcast of an array whose entries are all 1 has all entries 1. -/
theorem broadcastInDim_of_all {s t : Shape} (dims : Fin s.rank → Fin t.rank) (h : s.BroadcastsInDim t dims) (x : s.Idx → BitVec 1)
    (hx : ∀ k, x k = 1#1) (j : t.Idx) : broadcastInDim t dims h x j = 1#1 := by
  unfold broadcastInDim
  exact hx _

/-- A select whose condition is 1 everywhere is its first branch. -/
theorem select_of_all {s : Shape} {α : Type} (c : IVec s 1) (a b : s.Idx → α) (hc : ∀ i, c i = 1#1) : select c a b = a := by
  funext i
  rw [ValueIdx.select_apply, hc i]
  rfl

end TakeRows

open TakeRows in
/-- With every source index in -50000 … 49999 the wrapped index of every edge passes the kernel's range test, so the mask
    is 1 on every row, the select keeps the gathered rows everywhere, and what is left is the gather at the wrapped
    indices, which is the model's. -/
theorem takeRows_eq (h : FVec Ideal S50000x96 .f32) (s : IVec S800000 32)
    (hs : ∀ e : S800000.Idx, -50000 ≤ (s e).toInt ∧ (s e).toInt < 50000) :
    takeRows h s = Cert.Model.rowsAt h s := by
  unfold takeRows
  refine (select_of_all _ _ _ ?_).trans ?_
  · -- the mask: the per-edge test, broadcast along the row
    intro i
    refine broadcastInDim_of_all _ _ _ ?_ i
    -- the per-edge test: the conjunction over the one column of the two comparisons
    intro e
    refine reduce_andi_of_all _ _ _ _ ?_ rfl e
    -- at an entry of the column, the two comparisons are those of the wrapped word of that edge's source index
    intro k
    exact test_wrapWord _ (hs _).1 (hs _).2
  · -- the gather that is left is the model's: the same dimension numbers, the same wrapped indices
    rfl

end Cert.KernelIdeal.Stage

end
-- ==== Proof.PreIdx.lean ====
/-
  What the precondition says of the edge list: every source index (row 0) lies in -50000 … 49999.
-/
import proofs.«420017_j33689723470134_1_alg».proof.Defs
import proofs.«420017_j33689723470134_1_alg».proof.Proof.Gen.KernelIdeal
import proofs.«420017_j33689723470134_1_alg».proof.Proof.Gen.Pre_finite_inputs
import proofs.«420017_j33689723470134_1_alg».proof.Proof.Model
import Idealize.ShloMosaic.Lib.ValueIdx
import Idealize.ShloMosaic.Lib.ReduceAll
import Idealize.ShloMosaic.Lib.StableHlo.Predicate

noncomputable section

namespace Cert.KernelIdeal.Stage

open Cert.KernelIdeal Cert.KernelIdeal.Gen Idealize.ShloMosaic Idealize.ShloMosaic.TcCoe Idealize.SL.Sem

namespace PreIdx

/-- A signed "greater or equal" that holds orders the words' signed values. -/
theorem toInt_le_of_sge {a b : BitVec 32} (h : IntOp.cmpi .sge a b = 1#1) : b.toInt ≤ a.toInt := by
  unfold IntOp.cmpi at h
  rw [StableHlo.Predicate.ofBool_eq_one_iff] at h
  simpa only [BitVec.sle, decide_eq_true_eq] using h

/-- A signed "less than" that holds orders the words' signed values. -/
theorem toInt_lt_of_slt {a b : BitVec 32} (h : IntOp.cmpi .slt a b = 1#1) : a.toInt < b.toInt := by
  unfold IntOp.cmpi at h
  rw [StableHlo.Predicate.ofBool_eq_one_iff] at h
  simpa only [BitVec.slt, decide_eq_true_eq] using h

end PreIdx

open PreIdx in
/-- The precondition is a conjunction of fourteen tests, each itself a conjunction over all entries of one argument. Its
    last two are "every source index is at least -50000" (the word 4294917296 read signed) and "every source index is
    below 50000", over the 800000 edges; read at edge e they are the two bounds. -/
theorem src_range_of_pre (m : (ℓ : Loc nD τ sig) → Buf (Elt Ideal) ℓ) (hpre : Cert.Pre_KernelIdeal m) (c : Dev nD) :
    ∀ e : S800000.Idx,
      -50000 ≤ (Cert.Model.srcOf (m ((c.tc : Thread nD τ).loc main_arg1)) e).toInt
      ∧ (Cert.Model.srcOf (m ((c.tc : Thread nD τ).loc main_arg1)) e).toInt < 50000 := by
  intro e
  -- the scalar shape has one index
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the conjunction of the fourteen tests at the scalar index: keep the last two
  obtain ⟨h', hlt⟩ := IntOp.andi_eq_one.1 (show IntOp.andi _ _ = 1#1 from h)
  obtain ⟨-, hge⟩ := IntOp.andi_eq_one.1 (show IntOp.andi _ _ = 1#1 from h')
  -- each is a conjunction over all edges: read it at e
  have gge := Host.reduce_andi_all _ _ _ _ _ hge e
  have glt := Host.reduce_andi_all _ _ _ _ _ hlt e
  -- a comparison against a broadcast constant, at e, compares the source index with the constant
  have ige := toInt_le_of_sge (show IntOp.cmpi .sge _ _ = 1#1 from gge)
  have ilt := toInt_lt_of_slt (show IntOp.cmpi .slt _ _ = 1#1 from glt)
  have cm : (4294917296#32 : BitVec 32).toInt = -50000 := by decide
  have cp : (50000#32 : BitVec 32).toInt = 50000 := by decide
  exact ⟨cm ▸ ige, cp ▸ ilt⟩

end Cert.KernelIdeal.Stage

end
-- ==== Proof.lean ====
/-
  Both programs compute the same network on the extended reals: two message-passing layers over the edge list (node
  features through a dense layer, gathered by the edges' sources, the edges' own features added, the messages summed
  into their targets, a relu), the mean over each graph of the batch, and a last dense layer.

  The kernel program computes its three dense layers and its two edge transforms in five pipelined kernels (a matrix
  product into a zero accumulator plus the bias row; an edge's attribute times the weight row plus the bias row) and
  everything else on the host; the reference computes everything on the host. Stage by stage the two are the same
  functions of their operands, with one exception: the kernel program's gather fills a row whose index, wrapped as
  Python indexing wraps it, falls outside 0 … 49999, where the reference's gather clamps the index. The precondition
  keeps every source index inside -50000 … 49999, where the wrapped index is in range, no row is filled, and the two
  gathers agree. The frames are the generated ones; the idealization rewrote nothing.
-/
import proofs.«420017_j33689723470134_1_alg».proof.Defs
import proofs.«420017_j33689723470134_1_alg».proof.Proof.Gen.Kernel
import proofs.«420017_j33689723470134_1_alg».proof.Proof.Gen.Kernel.Frame
import proofs.«420017_j33689723470134_1_alg».proof.Proof.Gen.KernelIdeal
import proofs.«420017_j33689723470134_1_alg».proof.Proof.Gen.KernelIdeal.Frame
import proofs.«420017_j33689723470134_1_alg».proof.Proof.Gen.ReferenceIdeal
import proofs.«420017_j33689723470134_1_alg».proof.Proof.Gen.ReferenceIdeal.Run
import proofs.«420017_j33689723470134_1_alg».proof.Proof.Gen.Pre_finite_inputs
import proofs.«420017_j33689723470134_1_alg».proof.Proof.KernelRun
import proofs.«420017_j33689723470134_1_alg».proof.Proof.KernelValue
import proofs.«420017_j33689723470134_1_alg».proof.Proof.RStages
import proofs.«420017_j33689723470134_1_alg».proof.Proof.StageEq
import proofs.«420017_j33689723470134_1_alg».proof.Proof.TakeRows
import proofs.«420017_j33689723470134_1_alg».proof.Proof.PreIdx
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network over the host stages and the clamping gather, of the kernel
    program's argument arrays: the kernel program's by its stages being the host's and its gather the clamping one on
    source indices in range; the reference's by its run, its arguments agreeing with the kernel program's. -/
theorem algebraic : Cert.algebraic_KernelIdeal_ReferenceIdeal := by
  intro m ρ m' ρ' hpre hagree
  refine ⟨fun c => Cert.Model.net Cert.ReferenceIdeal.Stage.hdense1 Cert.ReferenceIdeal.Stage.hdense2
      Cert.ReferenceIdeal.Stage.hdense3 Cert.ReferenceIdeal.Stage.hedge Cert.Model.rowsAt
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.Gen.run_named (F := Ideal) m ρ)
    rw [Cert.KernelIdeal.Stage.kernel_value m ρ c]
    exact Cert.Model.net_congr _ _ _ _ _ _ _ _ _ _ _ _ _ _
      Cert.StageEq.dense1_eq Cert.StageEq.dense2_eq Cert.StageEq.dense3_eq Cert.StageEq.edge_eq
      (fun h => Cert.KernelIdeal.Stage.takeRows_eq h _ (Cert.KernelIdeal.Stage.src_range_of_pre m hpre c))
  · refine (θ_run Cert.ReferenceIdeal.defs _ _).mono (fun r h c => ⟨(h c).1.trans ?_, (h c).2⟩)
      (Cert.ReferenceIdeal.Value.run (F := Ideal) m' ρ')
    rw [Cert.ReferenceIdeal.Stage.ref_value m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
